-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S32x128 .f32) (main_arg3 : FVec F S32 .f32) (main_arg4 : FVec F S32x32 .f32) (main_arg5 : FVec F S32 .f32) (main_arg6 : FVec F S32x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S128x32 : Shape := ⟨2, ![128, 32]⟩
abbrev S10000x32 : Shape := ⟨2, ![10000, 32]⟩
abbrev S32x10000 : Shape := ⟨2, ![32, 10000]⟩
abbrev S400x128 : Shape := ⟨2, ![400, 128]⟩
abbrev S400x10000 : Shape := ⟨2, ![400, 10000]⟩
abbrev S400x32 : Shape := ⟨2, ![400, 32]⟩

abbrev nBuf : Space → Nat
  | .hbm => 24
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S128x32, .f32⟩
  | .hbm, ⟨12, _⟩ => ⟨S10000x32, .f32⟩
  | .hbm, ⟨13, _⟩ => ⟨S10000x10000, .bf16⟩
  | .hbm, ⟨14, _⟩ => ⟨S32x10000, .f32⟩
  | .hbm, ⟨15, _⟩ => ⟨S10000x32, .f32⟩
  | .hbm, ⟨16, _⟩ => ⟨S10000x32, .bf16⟩
  | .hbm, ⟨17, _⟩ => ⟨S32x32, .f32⟩
  | .hbm, ⟨18, _⟩ => ⟨S10000x32, .f32⟩
  | .hbm, ⟨19, _⟩ => ⟨S32x10000, .f32⟩
  | .hbm, ⟨20, _⟩ => ⟨S10000x32, .f32⟩
  | .hbm, ⟨21, _⟩ => ⟨S10000x32, .bf16⟩
  | .hbm, ⟨22, _⟩ => ⟨S32x32, .f32⟩
  | .hbm, ⟨23, _⟩ => ⟨S10000x32, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S128x32, .f32⟩
  | .local _ .vmem, ⟨5, _⟩ => ⟨S1x32, .f32⟩
  | .local _ .vmem, ⟨6, _⟩ => ⟨S400x32, .f32⟩
  | .local _ .vmem, ⟨7, _⟩ => ⟨S400x32, .f32⟩
  | .local _ .vmem, ⟨8, _⟩ => ⟨S400x10000, .bf16⟩
  | .local _ .vmem, ⟨9, _⟩ => ⟨S400x10000, .bf16⟩
  | .local _ .vmem, ⟨10, _⟩ => ⟨S32x10000, .f32⟩
  | .local _ .vmem, ⟨11, _⟩ => ⟨S400x10000, .bf16⟩
  | .local _ .vmem, ⟨12, _⟩ => ⟨S400x10000, .bf16⟩
  | .local _ .vmem, ⟨13, _⟩ => ⟨S400x32, .f32⟩
  | .local _ .vmem, ⟨14, _⟩ => ⟨S400x32, .f32⟩
  | .local _ .vmem, ⟨15, _⟩ => ⟨S10000x32, .bf16⟩
  | .local _ .vmem, ⟨16, _⟩ => ⟨S32x32, .f32⟩
  | .local _ .vmem, ⟨17, _⟩ => ⟨S1x32, .f32⟩
  | .local _ .vmem, ⟨18, _⟩ => ⟨S400x32, .f32⟩
  | .local _ .vmem, ⟨19, _⟩ => ⟨S400x32, .f32⟩
  | .local _ .vmem, ⟨20, _⟩ => ⟨S32x10000, .f32⟩
  | .local _ .vmem, ⟨21, _⟩ => ⟨S400x10000, .bf16⟩
  | .local _ .vmem, ⟨22, _⟩ => ⟨S400x10000, .bf16⟩
  | .local _ .vmem, ⟨23, _⟩ => ⟨S400x32, .f32⟩
  | .local _ .vmem, ⟨24, _⟩ => ⟨S400x32, .f32⟩
  | .local _ .vmem, ⟨25, _⟩ => ⟨S10000x32, .bf16⟩
  | .local _ .vmem, ⟨26, _⟩ => ⟨S32x32, .f32⟩
  | .local _ .vmem, ⟨27, _⟩ => ⟨S1x32, .f32⟩
  | .local _ .vmem, ⟨28, _⟩ => ⟨S400x32, .f32⟩
  | .local _ .vmem, ⟨29, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S32x10000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S32_S1x32 : S32.ShapeCasts S1x32
  transposes_S32x128_S128x32_1_0 : S32x128.Transposes [1, 0] S128x32
  inb_S400x128_S400x128_0_0 : ∀ a, (![0, 0] : Fin 2 → Nat) a + S400x128.size a ≤ S400x128.size a
  h_S400x128 : 0 < S400x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S400x32 : S1x32.Broadcasts S400x32
  inb_S400x32_S400x32_0_0 : ∀ a, (![0, 0] : Fin 2 → Nat) a + S400x32.size a ≤ S400x32.size a
  h_S400x32 : 0 < S400x32.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  shapeCasts_S400x10000_S400x10000 : S400x10000.ShapeCasts S400x10000
  transposes_S32x10000_S10000x32_1_0 : S32x10000.Transposes [1, 0] S10000x32
  transposes_S32x32_S32x32_1_0 : S32x32.Transposes [1, 0] S32x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  shapeCasts_S400x32_S400x32 : S400x32.ShapeCasts S400x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  dot_S400x128_S128x32_S400x32_1_0_0_1_n_n_wf : DotDims.WF S400x128 S128x32 S400x32 [1] [0] [0] [1] [] []
  dot_S400x32_S400x10000_S32x10000_0_0_1_1_n_n_wf : DotDims.WF S400x32 S400x10000 S32x10000 [0] [0] [1] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32.size a ≤ S10000x32.size a
  hwx0_4 : ∀ i : grid0.Coords, EltTy.bits .f32 = 32 ∨ (Rect.block (s := S10000x32) S400x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x10000.size a ≤ S32x10000.size a
  hwx0_6 : ∀ i : grid0.Coords, EltTy.bits .f32 = 32 ∨ (Rect.block (s := S32x10000) S32x10000.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x32.size a ≤ S10000x32.size a
  hwx1_1 : ∀ i : grid1.Coords, EltTy.bits .f32 = 32 ∨ (Rect.block (s := S10000x32) S400x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S10000x32.size a
  hwx1_2 : ∀ i : grid1.Coords, EltTy.bits .bf16 = 32 ∨ (Rect.block (s := S10000x32) S10000x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x32.size a ≤ S10000x32.size a
  hwx1_5 : ∀ i : grid1.Coords, EltTy.bits .f32 = 32 ∨ (Rect.block (s := S10000x32) S400x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x10000.size a ≤ S32x10000.size a
  hwx1_6 : ∀ i : grid1.Coords, EltTy.bits .f32 = 32 ∨ (Rect.block (s := S32x10000) S32x10000.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x32.size a ≤ S10000x32.size a
  hwx2_1 : ∀ i : grid2.Coords, EltTy.bits .f32 = 32 ∨ (Rect.block (s := S10000x32) S400x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .bf16 = 32 ∨ (Rect.block (s := S10000x32) S10000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x32.size a ≤ S10000x32.size a
  hwx2_5 : ∀ i : grid2.Coords, EltTy.bits .f32 = 32 ∨ (Rect.block (s := S10000x32) S400x32.size (cc2_transform_5 i) (hinb2_5 i)).WholeWords (EltTy.packing .f32)

variable [Facts₀]

def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x32_S400x10000_S32x10000_0_0_1_1_n_n : DotDims S400x32 S400x10000 S32x10000 where
  lhsContracting := [0]
  rhsContracting := [0]
  lhsNonContracting := [1]
  rhsNonContracting := [1]
  lhsBatch := []
  rhsBatch := []
  wf := dot_S400x32_S400x10000_S32x10000_0_0_1_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S400x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S32x10000.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S400x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S32x10000.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S400x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S10000x32 : Shape := ⟨2, ![10000, 32]⟩
abbrev S1x32 : Shape := ⟨2, ![1, 32]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S128x32, .f32⟩
  | .hbm, ⟨9, _⟩ => ⟨S10000x32, .f32⟩
  | .hbm, ⟨10, _⟩ => ⟨S1x32, .f32⟩
  | .hbm, ⟨11, _⟩ => ⟨S10000x32, .f32⟩
  | .hbm, ⟨12, _⟩ => ⟨S10000x32, .f32⟩
  | .hbm, ⟨13, _⟩ => ⟨S10000x10000, .f32⟩
  | .hbm, ⟨14, _⟩ => ⟨S10000x32, .f32⟩
  | .hbm, ⟨15, _⟩ => ⟨S10000x32, .f32⟩
  | .hbm, ⟨16, _⟩ => ⟨S_, .f32⟩
  | .hbm, ⟨17, _⟩ => ⟨S10000x32, .f32⟩
  | .hbm, ⟨18, _⟩ => ⟨S10000x32, .f32⟩
  | .hbm, ⟨19, _⟩ => ⟨S10000x32, .f32⟩
  | .hbm, ⟨20, _⟩ => ⟨S32x32, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S_, .f32⟩
  | .hbm, ⟨26, _⟩ => ⟨S10000x32, .f32⟩
  | .hbm, ⟨27, _⟩ => ⟨S10000x32, .f32⟩
  | .hbm, ⟨28, _⟩ => ⟨S10000x10000, .f32⟩
  | .hbm, ⟨29, _⟩ => ⟨S10000x32, .f32⟩
  | .hbm, ⟨30, _⟩ => ⟨S10000x32, .f32⟩
  | .hbm, ⟨31, _⟩ => ⟨S_, .f32⟩
  | .hbm, ⟨32, _⟩ => ⟨S10000x32, .f32⟩
  | .hbm, ⟨33, _⟩ => ⟨S10000x32, .f32⟩
  | .hbm, ⟨34, _⟩ => ⟨S10000x32, .f32⟩
  | .hbm, ⟨35, _⟩ => ⟨S32x32, .f32⟩
  | .hbm, ⟨36, _⟩ => ⟨S10000x32, .f32⟩
  | .hbm, ⟨37, _⟩ => ⟨S1x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  transposes_S10000x10000_S10000x10000_1_0 : S10000x10000.Transposes [1, 0] S10000x10000
  bcast_S_S10000x32 : S_.BroadcastsInDim S10000x32 (![] : Fin 0 → Fin S10000x32.rank)
  transposes_S32x32_S32x32_1_0 : S32x32.Transposes [1, 0] S32x32
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.Spec.lean ====
/-
  The mathematics both programs compute, stated once on the extended reals and over literal shapes, importing no program.

  A two-layer hypergraph network on N = 10000 nodes and N hyperedges with incidence matrix A (N × N):
    x   = x₀ · Wᵢᵀ + bᵢ                                   (N × 32)
    per layer (W, b):  x₁ = Aᵀ x   (hyperedge features),  m = A x₁,   x ← max((x + m) · Wᵀ + b, 0).
  The results are the last x and the last x₁.

  The functions below take the weights already transposed and a bias as a 1 × 32 row, which is how both programs hold
  them when they are used; `aggT` is the hyperedge aggregation kept TRANSPOSED (32 × N), the layout in which the
  kernel accumulates it slab by slab.
-/
import Idealize.ShloMosaic.PureOps.Ideal
import Idealize.ShloMosaic.Lib.ValueIdx

noncomputable section

open scoped BigOperators

namespace Cert.HyperGin

open Idealize.ShloMosaic Idealize.ShloMosaic.ValueIdx

/-- An a × b array of extended reals. -/
abbrev Mat (a b : Nat) : Type := (⟨2, ![a, b]⟩ : Shape).Idx → EReal
/-- A length-a array of extended reals. -/
abbrev Row (a : Nat) : Type := (⟨1, ![a]⟩ : Shape).Idx → EReal

/-- The word of +0.0, which is the extended real 0; kept as the word so that both programs' zero splats are this term. -/
abbrev zeroW : EReal := Ideal.ofBits .f32 0x00000000#32

/-- The transpose. -/
def tr {a b : Nat} (y : Mat a b) : Mat b a := fun i => y (ix2 (i 1) (i 0))

/-- A bias vector as a 1 × a row. -/
def asRow {a : Nat} (v : Row a) : Mat 1 a := fun i => v (ix1 (i 1))

/-- One entry of the linear layer: Σₖ x[p,k] · wT[k,q] + b[0,q]. -/
def linAt (x : Mat 10000 128) (wT : Mat 128 32) (b : Mat 1 32) (p : Fin 10000) (q : Fin 32) : EReal :=
  (∑ k : Fin 128, x (ix2 p k) * wT (ix2 k q)) + b (ix2 0 q)

/-- The linear layer x · wT + b. -/
def lin (x : Mat 10000 128) (wT : Mat 128 32) (b : Mat 1 32) : Mat 10000 32 := fun i => linAt x wT b (i 0) (i 1)

/-- One entry of the transposed hyperedge aggregation: Σₙ x[n,h] · A[n,e]. -/
def aggTAt (A : Mat 10000 10000) (x : Mat 10000 32) (h : Fin 32) (e : Fin 10000) : EReal :=
  ∑ n : Fin 10000, x (ix2 n h) * A (ix2 n e)

/-- (Aᵀ x)ᵀ, a 32 × N array. -/
def aggT (A : Mat 10000 10000) (x : Mat 10000 32) : Mat 32 10000 := fun i => aggTAt A x (i 0) (i 1)

/-- One entry of a layer's update: max(Σⱼ (x[p,j] + Σₑ A[p,e] · x₁[e,j]) · wT[j,q] + b[0,q], 0). -/
def updAt (A : Mat 10000 10000) (x x1 : Mat 10000 32) (wT : Mat 32 32) (b : Mat 1 32) (p : Fin 10000) (q : Fin 32) : EReal :=
  max ((∑ j : Fin 32, (x (ix2 p j) + ∑ e : Fin 10000, A (ix2 p e) * x1 (ix2 e j)) * wT (ix2 j q)) + b (ix2 0 q)) zeroW

/-- A layer's update from the node features x and the hyperedge features x₁. -/
def upd (A : Mat 10000 10000) (x x1 : Mat 10000 32) (wT : Mat 32 32) (b : Mat 1 32) : Mat 10000 32 :=
  fun i => updAt A x x1 wT b (i 0) (i 1)

/-! ## The whole network, from the eight arguments -/

/-- The node features after the initial linear layer. -/
def feat0 (x0 : Mat 10000 128) (Wi : Mat 32 128) (bi : Row 32) : Mat 10000 32 := lin x0 (tr Wi) (asRow bi)

/-- One whole layer: aggregate to hyperedges, back to nodes, update. -/
def layer (A : Mat 10000 10000) (x : Mat 10000 32) (W : Mat 32 32) (b : Row 32) : Mat 10000 32 :=
  upd A x (tr (aggT A x)) (tr W) (asRow b)

/-- The node features after layer 1. -/
def feat1 (x0 : Mat 10000 128) (A : Mat 10000 10000) (Wi : Mat 32 128) (bi : Row 32) (W1 : Mat 32 32) (b1 : Row 32) : Mat 10000 32 :=
  layer A (feat0 x0 Wi bi) W1 b1

/-- First result: the node features after layer 2. -/
def outNodes (x0 : Mat 10000 128) (A : Mat 10000 10000) (Wi : Mat 32 128) (bi : Row 32) (W1 : Mat 32 32) (b1 : Row 32)
    (W2 : Mat 32 32) (b2 : Row 32) : Mat 10000 32 :=
  layer A (feat1 x0 A Wi bi W1 b1) W2 b2

/-- Second result: layer 2's hyperedge features Aᵀ x. -/
def outEdges (x0 : Mat 10000 128) (A : Mat 10000 10000) (Wi : Mat 32 128) (bi : Row 32) (W1 : Mat 32 32) (b1 : Row 32) : Mat 10000 32 :=
  tr (aggT A (feat1 x0 A Wi bi W1 b1))

end Cert.HyperGin

end
-- ==== Proof.Payloads.lean ====
/-
  The arithmetic of the three kernel bodies, read at one index on the extended reals.

  Each body computes its values from whole blocks: the linear layer of a 400-row slab, the bf16 copy of an incidence
  slab (the identity on extended reals), the zero block, the slab's contribution xᵀ·A added to the running 32 × N
  aggregate, and a layer's update of a slab. A matrix product into a zero accumulator is the plain sum over the one
  contracted axis; casts between float formats are the identity.
-/
import proofs.«108442_g68453188763984_cont_9to1_m_933_10_alg».proof.Proof.Gen.KernelIdeal.Skeleton
import proofs.«108442_g68453188763984_cont_9to1_m_933_10_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.HyperGin
open Idealize.ShloMosaic Idealize.ShloMosaic.ValueIdx
open scoped BigOperators

/-! ## The four matrix products into a zero accumulator, read at an index

  For each product the operand indices are read axis by axis first (a kept axis reads the output index, the
  contracted axis reads the contraction index), and the sum over the one-axis contraction shape is re-indexed over
  the contracted extent. -/

/-! ### [400,128] × [128,32]: rows by columns -/

theorem lhs_lin_0 (i : S400x32.Idx) (q : dot_S400x128_S128x32_S400x32_1_0_0_1_n_n.contr.Idx) :
    (dot_S400x128_S128x32_S400x32_1_0_0_1_n_n.lhsIdx i q 0).val = (i 0).val := by
  unfold DotDims.lhsIdx
  rw [dif_neg (show ¬(0 : Fin S400x128.rank) ∈ dot_S400x128_S128x32_S400x32_1_0_0_1_n_n.lhsBatch by decide), dif_pos (show (0 : Fin S400x128.rank) ∈ dot_S400x128_S128x32_S400x32_1_0_0_1_n_n.lhsNonContracting by decide)]
  rfl
theorem lhs_lin_1 (i : S400x32.Idx) (q : dot_S400x128_S128x32_S400x32_1_0_0_1_n_n.contr.Idx) :
    (dot_S400x128_S128x32_S400x32_1_0_0_1_n_n.lhsIdx i q 1).val = (q ⟨0, by decide⟩).val :=
  dot_S400x128_S128x32_S400x32_1_0_0_1_n_n.lhsIdx_val_of_single rfl i q
theorem rhs_lin_0 (i : S400x32.Idx) (q : dot_S400x128_S128x32_S400x32_1_0_0_1_n_n.contr.Idx) :
    (dot_S400x128_S128x32_S400x32_1_0_0_1_n_n.rhsIdx i q 0).val = (q ⟨0, by decide⟩).val :=
  dot_S400x128_S128x32_S400x32_1_0_0_1_n_n.rhsIdx_val_of_single rfl i q
theorem rhs_lin_1 (i : S400x32.Idx) (q : dot_S400x128_S128x32_S400x32_1_0_0_1_n_n.contr.Idx) :
    (dot_S400x128_S128x32_S400x32_1_0_0_1_n_n.rhsIdx i q 1).val = (i 1).val := by
  unfold DotDims.rhsIdx
  rw [dif_neg (show ¬(1 : Fin S128x32.rank) ∈ dot_S400x128_S128x32_S400x32_1_0_0_1_n_n.rhsBatch by decide), dif_pos (show (1 : Fin S128x32.rank) ∈ dot_S400x128_S128x32_S400x32_1_0_0_1_n_n.rhsNonContracting by decide)]
  rfl

/-- The slab's linear product at (a, b): Σₖ x[a,k] · w[k,b] over the 128 input features. -/
theorem mm_lin (x : FVec Ideal S400x128 .f32) (w : FVec Ideal S128x32 .f32) (a : Fin 400) (b : Fin 32) :
    matmul dot_S400x128_S128x32_S400x32_1_0_0_1_n_n none x w (constant (F := Ideal) S400x32 .f32 0x00000000#32) (ix2 a b)
      = ∑ k : Fin 128, x (ix2 a k) * w (ix2 k b) := by
  refine (Ideal.matmul_constant_zero_apply dot_S400x128_S128x32_S400x32_1_0_0_1_n_n none x w (ix2 a b)).trans ?_
  rw [← Equiv.sum_comp (ValueIdx.contrEquiv1 dot_S400x128_S128x32_S400x32_1_0_0_1_n_n 128 rfl rfl).symm]
  refine Finset.sum_congr rfl fun k _ => ?_
  have hk := ValueIdx.contrEquiv1_symm_val dot_S400x128_S128x32_S400x32_1_0_0_1_n_n 128 rfl rfl k
  have el : dot_S400x128_S128x32_S400x32_1_0_0_1_n_n.lhsIdx (ix2 a b) ((ValueIdx.contrEquiv1 dot_S400x128_S128x32_S400x32_1_0_0_1_n_n 128 rfl rfl).symm k) = ix2 a k := funext fun c => Fin.ext (by
    match c with
    | ⟨0, _⟩ => exact lhs_lin_0 _ _
    | ⟨1, _⟩ => exact (lhs_lin_1 _ _).trans hk)
  have er : dot_S400x128_S128x32_S400x32_1_0_0_1_n_n.rhsIdx (ix2 a b) ((ValueIdx.contrEquiv1 dot_S400x128_S128x32_S400x32_1_0_0_1_n_n 128 rfl rfl).symm k) = ix2 k b := funext fun c => Fin.ext (by
    match c with
    | ⟨0, _⟩ => exact (rhs_lin_0 _ _).trans hk
    | ⟨1, _⟩ => exact rhs_lin_1 _ _)
  rw [el, er]

/-! ### [400,32]ᵀ × [400,10000]: both operands contracted along the slab's rows -/

theorem lhs_agg_0 (i : S32x10000.Idx) (q : dot_S400x32_S400x10000_S32x10000_0_0_1_1_n_n.contr.Idx) :
    (dot_S400x32_S400x10000_S32x10000_0_0_1_1_n_n.lhsIdx i q 0).val = (q ⟨0, by decide⟩).val :=
  dot_S400x32_S400x10000_S32x10000_0_0_1_1_n_n.lhsIdx_val_of_single rfl i q
theorem lhs_agg_1 (i : S32x10000.Idx) (q : dot_S400x32_S400x10000_S32x10000_0_0_1_1_n_n.contr.Idx) :
    (dot_S400x32_S400x10000_S32x10000_0_0_1_1_n_n.lhsIdx i q 1).val = (i 0).val := by
  unfold DotDims.lhsIdx
  rw [dif_neg (show ¬(1 : Fin S400x32.rank) ∈ dot_S400x32_S400x10000_S32x10000_0_0_1_1_n_n.lhsBatch by decide), dif_pos (show (1 : Fin S400x32.rank) ∈ dot_S400x32_S400x10000_S32x10000_0_0_1_1_n_n.lhsNonContracting by decide)]
  rfl
theorem rhs_agg_0 (i : S32x10000.Idx) (q : dot_S400x32_S400x10000_S32x10000_0_0_1_1_n_n.contr.Idx) :
    (dot_S400x32_S400x10000_S32x10000_0_0_1_1_n_n.rhsIdx i q 0).val = (q ⟨0, by decide⟩).val :=
  dot_S400x32_S400x10000_S32x10000_0_0_1_1_n_n.rhsIdx_val_of_single rfl i q
theorem rhs_agg_1 (i : S32x10000.Idx) (q : dot_S400x32_S400x10000_S32x10000_0_0_1_1_n_n.contr.Idx) :
    (dot_S400x32_S400x10000_S32x10000_0_0_1_1_n_n.rhsIdx i q 1).val = (i 1).val := by
  unfold DotDims.rhsIdx
  rw [dif_neg (show ¬(1 : Fin S400x10000.rank) ∈ dot_S400x32_S400x10000_S32x10000_0_0_1_1_n_n.rhsBatch by decide), dif_pos (show (1 : Fin S400x10000.rank) ∈ dot_S400x32_S400x10000_S32x10000_0_0_1_1_n_n.rhsNonContracting by decide)]
  rfl

/-- The slab's contribution to the transposed aggregate at (a, b): Σᵣ x[r,a] · A[r,b] over the slab's 400 rows. -/
theorem mm_agg (x : FVec Ideal S400x32 .bf16) (A : FVec Ideal S400x10000 .bf16) (a : Fin 32) (b : Fin 10000) :
    matmul dot_S400x32_S400x10000_S32x10000_0_0_1_1_n_n none x A (constant (F := Ideal) S32x10000 .f32 0x00000000#32) (ix2 a b)
      = ∑ k : Fin 400, x (ix2 k a) * A (ix2 k b) := by
  refine (Ideal.matmul_constant_zero_apply dot_S400x32_S400x10000_S32x10000_0_0_1_1_n_n none x A (ix2 a b)).trans ?_
  rw [← Equiv.sum_comp (ValueIdx.contrEquiv1 dot_S400x32_S400x10000_S32x10000_0_0_1_1_n_n 400 rfl rfl).symm]
  refine Finset.sum_congr rfl fun k _ => ?_
  have hk := ValueIdx.contrEquiv1_symm_val dot_S400x32_S400x10000_S32x10000_0_0_1_1_n_n 400 rfl rfl k
  have el : dot_S400x32_S400x10000_S32x10000_0_0_1_1_n_n.lhsIdx (ix2 a b) ((ValueIdx.contrEquiv1 dot_S400x32_S400x10000_S32x10000_0_0_1_1_n_n 400 rfl rfl).symm k) = ix2 k a := funext fun c => Fin.ext (by
    match c with
    | ⟨0, _⟩ => exact (lhs_agg_0 _ _).trans hk
    | ⟨1, _⟩ => exact lhs_agg_1 _ _)
  have er : dot_S400x32_S400x10000_S32x10000_0_0_1_1_n_n.rhsIdx (ix2 a b) ((ValueIdx.contrEquiv1 dot_S400x32_S400x10000_S32x10000_0_0_1_1_n_n 400 rfl rfl).symm k) = ix2 k b := funext fun c => Fin.ext (by
    match c with
    | ⟨0, _⟩ => exact (rhs_agg_0 _ _).trans hk
    | ⟨1, _⟩ => exact rhs_agg_1 _ _)
  rw [el, er]

/-! ### [400,10000] × [10000,32]: the slab's rows against the hyperedge features -/

theorem lhs_msg_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_msg_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_msg_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_msg_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The message to the slab's nodes at (a, b): Σₑ A[a,e] · y[e,b] over the 10000 hyperedges. -/
theorem mm_msg (A : FVec Ideal S400x10000 .bf16) (y : FVec Ideal S10000x32 .bf16) (a : Fin 400) (b : Fin 32) :
    matmul dot_S400x10000_S10000x32_S400x32_1_0_0_1_n_n none A y (constant (F := Ideal) S400x32 .f32 0x00000000#32) (ix2 a b)
      = ∑ k : Fin 10000, A (ix2 a k) * y (ix2 k b) := by
  refine (Ideal.matmul_constant_zero_apply dot_S400x10000_S10000x32_S400x32_1_0_0_1_n_n none A y (ix2 a b)).trans ?_
  rw [← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 a b) ((ValueIdx.contrEquiv1 dot_S400x10000_S10000x32_S400x32_1_0_0_1_n_n 10000 rfl rfl).symm k) = ix2 a k := funext fun c => Fin.ext (by
    match c with
    | ⟨0, _⟩ => exact lhs_msg_0 _ _
    | ⟨1, _⟩ => exact (lhs_msg_1 _ _).trans hk)
  have er : dot_S400x10000_S10000x32_S400x32_1_0_0_1_n_n.rhsIdx (ix2 a b) ((ValueIdx.contrEquiv1 dot_S400x10000_S10000x32_S400x32_1_0_0_1_n_n 10000 rfl rfl).symm k) = ix2 k b := funext fun c => Fin.ext (by
    match c with
    | ⟨0, _⟩ => exact (rhs_msg_0 _ _).trans hk
    | ⟨1, _⟩ => exact rhs_msg_1 _ _)
  rw [el, er]

/-! ### [400,32] × [32,32]: the layer's weight -/

theorem lhs_wt_0 (i : S400x32.Idx) (q : dot_S400x32_S32x32_S400x32_1_0_0_1_n_n.contr.Idx) :
    (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
theorem lhs_wt_1 (i : S400x32.Idx) (q : dot_S400x32_S32x32_S400x32_1_0_0_1_n_n.contr.Idx) :
    (dot_S400x32_S32x32_S400x32_1_0_0_1_n_n.lhsIdx i q 1).val = (q ⟨0, by decide⟩).val :=
  dot_S400x32_S32x32_S400x32_1_0_0_1_n_n.lhsIdx_val_of_single rfl i q
theorem rhs_wt_0 (i : S400x32.Idx) (q : dot_S400x32_S32x32_S400x32_1_0_0_1_n_n.contr.Idx) :
    (dot_S400x32_S32x32_S400x32_1_0_0_1_n_n.rhsIdx i q 0).val = (q ⟨0, by decide⟩).val :=
  dot_S400x32_S32x32_S400x32_1_0_0_1_n_n.rhsIdx_val_of_single rfl i q
theorem rhs_wt_1 (i : S400x32.Idx) (q : dot_S400x32_S32x32_S400x32_1_0_0_1_n_n.contr.Idx) :
    (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl

/-- The weight product at (a, b): Σⱼ x[a,j] · w[j,b] over the 32 features. -/
theorem mm_wt (x : FVec Ideal S400x32 .f32) (w : FVec Ideal S32x32 .f32) (a : Fin 400) (b : Fin 32) :
    matmul dot_S400x32_S32x32_S400x32_1_0_0_1_n_n none x w (constant (F := Ideal) S400x32 .f32 0x00000000#32) (ix2 a b)
      = ∑ k : Fin 32, x (ix2 a k) * w (ix2 k b) := by
  refine (Ideal.matmul_constant_zero_apply dot_S400x32_S32x32_S400x32_1_0_0_1_n_n none x w (ix2 a b)).trans ?_
  rw [← Equiv.sum_comp (ValueIdx.contrEquiv1 dot_S400x32_S32x32_S400x32_1_0_0_1_n_n 32 rfl rfl).symm]
  refine Finset.sum_congr rfl fun k _ => ?_
  have hk := ValueIdx.contrEquiv1_symm_val dot_S400x32_S32x32_S400x32_1_0_0_1_n_n 32 rfl rfl k
  have el : dot_S400x32_S32x32_S400x32_1_0_0_1_n_n.lhsIdx (ix2 a b) ((ValueIdx.contrEquiv1 dot_S400x32_S32x32_S400x32_1_0_0_1_n_n 32 rfl rfl).symm k) = ix2 a k := funext fun c => Fin.ext (by
    match c with
    | ⟨0, _⟩ => exact lhs_wt_0 _ _
    | ⟨1, _⟩ => exact (lhs_wt_1 _ _).trans hk)
  have er : dot_S400x32_S32x32_S400x32_1_0_0_1_n_n.rhsIdx (ix2 a b) ((ValueIdx.contrEquiv1 dot_S400x32_S32x32_S400x32_1_0_0_1_n_n 32 rfl rfl).symm k) = ix2 k b := funext fun c => Fin.ext (by
    match c with
    | ⟨0, _⟩ => exact (rhs_wt_0 _ _).trans hk
    | ⟨1, _⟩ => exact rhs_wt_1 _ _)
  rw [el, er]

/-! ## The bias row -/

/-- A 1 × 32 bias row cast to a vector, back to a row, and broadcast over 400 rows reads the row at the column. -/
theorem bias_at (b : FVec Ideal S1x32 .f32) (p : Fin 400) (q : Fin 32) :
    broadcastTo S400x32 (shapeCast S1x32 (shapeCast S32 b shapeCasts_S1x32_S32) shapeCasts_S32_S1x32) broadcasts_S1x32_S400x32 (ix2 p q)
      = b (ix2 0 q) := by
  rw [shapeCast_shapeCast]
  exact broadcastTo_1b_ab_apply b broadcasts_S1x32_S400x32 p q

/-! ## The payloads -/

/-- Pass 1's slab of node features: Σₖ x₀[p,k] · wT[k,q] + b[0,q]. -/
theorem lin_at (v0 : Vec Ideal S400x128 .f32) (v1 : Vec Ideal S128x32 .f32) (v4 : Vec Ideal S1x32 .f32) (p : Fin 400) (q : Fin 32) :
    k0_pay1 (F := Ideal) v0 v1 v4 (ix2 p q) = (∑ k : Fin 128, v0 (ix2 p k) * v1 (ix2 k q)) + v4 (ix2 0 q) := by
  unfold k0_pay1
  rw [addf_apply, shapeCast_self]
  exact congrArg₂ (· + ·) (mm_lin v0 v1 p q) (bias_at v4 p q)

/-- Pass 1's bf16 copy of the incidence slab is the slab. -/
theorem cast_at (v10 : Vec Ideal S400x10000 .f32) (i : S400x10000.Idx) : k0_pay2 (F := Ideal) v10 i = v10 i := rfl

/-- Pass 1's reset block is zero. -/
theorem zero0_at (i : S32x10000.Idx) : k0_pay3 (F := Ideal) i = zeroW := rfl

/-- Pass 1's accumulation: the running aggregate plus Σᵣ x[r,h] · A[r,e] over the slab's 400 rows. -/
theorem acc0_at (v0 : Vec Ideal S400x128 .f32) (v1 : Vec Ideal S128x32 .f32) (v4 : Vec Ideal S1x32 .f32)
    (v16 : Vec Ideal S32x10000 .f32) (v19 : Vec Ideal S400x10000 .bf16) (h : Fin 32) (e : Fin 10000) :
    k0_pay4 (F := Ideal) v0 v1 v4 v16 v19 (ix2 h e)
      = v16 (ix2 h e) + ∑ r : Fin 400, k0_pay1 (F := Ideal) v0 v1 v4 (ix2 r h) * v19 (ix2 r e) := by
  unfold k0_pay4
  generalize k0_pay1 (F := Ideal) v0 v1 v4 = y
  rw [addf_apply, shapeCast_self, shapeCast_self]
  exact congrArg (v16 (ix2 h e) + ·) (mm_agg (truncf .bf16 y bitsLt_bf16_f32) v19 h e)

/-- Pass 2's slab update: max(Σⱼ (x[p,j] + Σₑ A[p,e] · x₁[e,j]) · wT[j,q] + b[0,q], 0). -/
theorem upd1_at (v0 : Vec Ideal S400x10000 .bf16) (v2 : Vec Ideal S10000x32 .bf16) (v5 : Vec Ideal S400x32 .f32)
    (v8 : Vec Ideal S32x32 .f32) (v11 : Vec Ideal S1x32 .f32) (p : Fin 400) (q : Fin 32) :
    k1_pay1 (F := Ideal) v0 v2 v5 v8 v11 (ix2 p q)
      = max ((∑ j : Fin 32, (v5 (ix2 p j) + ∑ e : Fin 10000, v0 (ix2 p e) * v2 (ix2 e j)) * v8 (ix2 j q)) + v11 (ix2 0 q)) zeroW := by
  unfold k1_pay1
  rw [maximumf_apply, addf_apply, broadcast_apply, shapeCast_self, shapeCast_self, shapeCast_self, shapeCast_self]
  refine congrArg₂ max (congrArg₂ (· + ·) ((mm_wt _ v8 p q).trans ?_) (bias_at v11 p q)) rfl
  refine Finset.sum_congr rfl fun j _ => ?_
  rw [addf_apply]
  exact congrArg (fun t => (v5 (ix2 p j) + t) * v8 (ix2 j q)) (mm_msg v0 v2 p j)

/-- Pass 2's reset block is zero. -/
theorem zero1_at (i : S32x10000.Idx) : k1_pay2 (F := Ideal) i = zeroW := rfl

/-- Pass 2's accumulation: the running aggregate plus Σᵣ xn[r,h] · A[r,e] over the slab's 400 rows. -/
theorem acc1_at (v0 : Vec Ideal S400x10000 .bf16) (v2 : Vec Ideal S10000x32 .bf16) (v5 : Vec Ideal S400x32 .f32)
    (v8 : Vec Ideal S32x32 .f32) (v11 : Vec Ideal S1x32 .f32) (v22 : Vec Ideal S32x10000 .f32) (v25 : Vec Ideal S400x10000 .bf16)
    (h : Fin 32) (e : Fin 10000) :
    k1_pay3 (F := Ideal) v0 v2 v5 v8 v11 v22 v25 (ix2 h e)
      = v22 (ix2 h e) + ∑ r : Fin 400, k1_pay1 (F := Ideal) v0 v2 v5 v8 v11 (ix2 r h) * v25 (ix2 r e) := by
  unfold k1_pay3
  generalize k1_pay1 (F := Ideal) v0 v2 v5 v8 v11 = y
  rw [addf_apply, shapeCast_self, shapeCast_self]
  exact congrArg (v22 (ix2 h e) + ·) (mm_agg (truncf .bf16 y bitsLt_bf16_f32) v25 h e)

/-- Pass 3's slab update, the same function as pass 2's. -/
theorem upd2_at (v0 : Vec Ideal S400x10000 .bf16) (v2 : Vec Ideal S10000x32 .bf16) (v5 : Vec Ideal S400x32 .f32)
    (v8 : Vec Ideal S32x32 .f32) (v11 : Vec Ideal S1x32 .f32) (p : Fin 400) (q : Fin 32) :
    k2_pay1 (F := Ideal) v0 v2 v5 v8 v11 (ix2 p q)
      = max ((∑ j : Fin 32, (v5 (ix2 p j) + ∑ e : Fin 10000, v0 (ix2 p e) * v2 (ix2 e j)) * v8 (ix2 j q)) + v11 (ix2 0 q)) zeroW := by
  unfold k2_pay1
  rw [maximumf_apply, addf_apply, broadcast_apply, shapeCast_self, shapeCast_self, shapeCast_self, shapeCast_self]
  refine congrArg₂ max (congrArg₂ (· + ·) ((mm_wt _ v8 p q).trans ?_) (bias_at v11 p q)) rfl
  refine Finset.sum_congr rfl fun j _ => ?_
  rw [addf_apply]
  exact congrArg (fun t => (v5 (ix2 p j) + t) * v8 (ix2 j q)) (mm_msg v0 v2 p j)

end Cert.KernelIdeal.Pay

end
-- ==== Proof.Reg0.lean ====
/-
  Pass 1, from whatever its arrays hold when it is entered: over 25 slabs of 400 rows it leaves the node features
  x = x₀ · wT + b (each slab written to its own rows), a copy of the incidence matrix, and the transposed aggregate
  Σₙ x[n,h] · A[n,e], accumulated slab by slab from zero in one block that every point revisits.

  Point t handles the rows 400·t … 400·t+399. The node features and the copy are written back at every point, and
  row r lies in the slab of point r / 400, so each array is the one function of the inputs that every slab restricts.
  The aggregate's block is the whole 32 × 10000 array: after point n its entry (h, e) is the sum of x[r,h] · A[r,e]
  over the rows r < 400·(n+1) (zero plus the first slab at point 0, the previous sum plus the next slab afterwards),
  and the one write-back after point 24 leaves the sum over all 10000 rows. The slab of node features that enters
  the aggregate is recomputed from the same input rows, so it is x at those rows.
-/
import proofs.«108442_g68453188763984_cont_9to1_m_933_10_alg».proof.Proof.Gen.KernelIdeal.Frame
import proofs.«108442_g68453188763984_cont_9to1_m_933_10_alg».proof.Proof.Spec
import proofs.«108442_g68453188763984_cont_9to1_m_933_10_alg».proof.Proof.Payloads
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Reg0

open Cert.KernelIdeal Cert.KernelIdeal.Gen Cert.HyperGin
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a store or load of a whole block. -/
private theorem hz : (![0, 0] : Fin 2 → Nat) = fun _ => 0 := funext fun a => by fin_cases a <;> rfl

/-! ## What one point leaves in each output block, as the body's arithmetic of the point's input blocks -/

/-- At the first point the node-feature block is the linear layer of the input blocks. -/
private theorem pieceA4 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : cond0_0 i) (x0 : Vec F S400x128 .f32) (x1 : Vec F S400x10000 .f32) (x2 : Vec F S128x32 .f32) (x3 : Vec F S1x32 .f32) :
    out0_A_4 c i a1 h1 a2 h2 a3 h3 a4 h4 a5 h5 a6 h6 a7 h7 hc x0 x1 x2 x3 = k0_pay1 x0 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h3.read_unread, h4.read_unread, View.ld_unit_zero (S := S400x128) hz, View.ld_unit_zero (S := S128x32) hz, View.ld_unit_zero (S := S1x32) hz]

/-- At the first point the copy block is the cast of the incidence block. -/
private theorem pieceA5 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : cond0_0 i) (x0 : Vec F S400x128 .f32) (x1 : Vec F S400x10000 .f32) (x2 : Vec F S128x32 .f32) (x3 : Vec F S1x32 .f32) :
    out0_A_5 c i a1 h1 a2 h2 a3 h3 a4 h4 a5 h5 a6 h6 a7 h7 hc x0 x1 x2 x3 = k0_pay2 x1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, View.ld_unit_zero (S := S400x10000) hz]

/-- At the first point the aggregate block is reset to zero and then receives the slab's contribution. -/
private theorem pieceA6 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : cond0_0 i) (x0 : Vec F S400x128 .f32) (x1 : Vec F S400x10000 .f32) (x2 : Vec F S128x32 .f32) (x3 : Vec F S1x32 .f32) :
    out0_A_6 c i a1 h1 a2 h2 a3 h3 a4 h4 a5 h5 a6 h6 a7 h7 hc x0 x1 x2 x3 = k0_pay4 x0 x2 x3 (k0_pay3 (F := F)) (k0_pay2 x1) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S32x10000) hz, View.readCov_unit_zero (S := S32x10000) _ hz]
  simp only [View.readAt_eq_ld, h1.read_unread, h2.read_unread, h3.read_unread, h4.read_unread, View.ld_unit_zero (S := S400x128) hz, View.ld_unit_zero (S := S128x32) hz, View.ld_unit_zero (S := S1x32) hz, View.ld_unit_zero (S := S400x10000) hz, View.readCov_unit_zero (S := S400x10000) _ hz]

/-- At a later point the node-feature block is again the linear layer of the input blocks. -/
private theorem pieceB4 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : ¬cond0_0 i) (x0 : Vec F S400x128 .f32) (x1 : Vec F S400x10000 .f32) (x2 : Vec F S128x32 .f32) (x3 : Vec F S1x32 .f32) (xo : Vec F S32x10000 .f32) :
    out0_B_4 c i a1 h1 a2 h2 a3 h3 a4 h4 a5 h5 a6 h6 a7 h7 hc x0 x1 x2 x3 xo = k0_pay1 x0 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h3.read_unread, h4.read_unread, View.ld_unit_zero (S := S400x128) hz, View.ld_unit_zero (S := S128x32) hz, View.ld_unit_zero (S := S1x32) hz]

/-- At a later point the copy block is again the cast of the incidence block. -/
private theorem pieceB5 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : ¬cond0_0 i) (x0 : Vec F S400x128 .f32) (x1 : Vec F S400x10000 .f32) (x2 : Vec F S128x32 .f32) (x3 : Vec F S1x32 .f32) (xo : Vec F S32x10000 .f32) :
    out0_B_5 c i a1 h1 a2 h2 a3 h3 a4 h4 a5 h5 a6 h6 a7 h7 hc x0 x1 x2 x3 xo = k0_pay2 x1 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h2.read_unread, View.ld_unit_zero (S := S400x10000) hz]

/-- At a later point the aggregate block is what the point before left plus the slab's contribution. -/
private theorem pieceB6 {F : FTy → Type} [FloatOps F] (c : Dev nD) (i : grid0.Coords) (a1 : Memref sig .tc .vmem S400x128 .f32) (h1 : a1.IsWhole) (a2 : Memref sig .tc .vmem S400x10000 .f32) (h2 : a2.IsWhole) (a3 : Memref sig .tc .vmem S128x32 .f32) (h3 : a3.IsWhole) (a4 : Memref sig .tc .vmem S1x32 .f32) (h4 : a4.IsWhole) (a5 : Memref sig .tc .vmem S400x32 .f32) (h5 : a5.IsWhole) (a6 : Memref sig .tc .vmem S400x10000 .bf16) (h6 : a6.IsWhole) (a7 : Memref sig .tc .vmem S32x10000 .f32) (h7 : a7.IsWhole) (hc : ¬cond0_0 i) (x0 : Vec F S400x128 .f32) (x1 : Vec F S400x10000 .f32) (x2 : Vec F S128x32 .f32) (x3 : Vec F S1x32 .f32) (xo : Vec F S32x10000 .f32) :
    out0_B_6 c i a1 h1 a2 h2 a3 h3 a4 h4 a5 h5 a6 h6 a7 h7 hc x0 x1 x2 x3 xo = k0_pay4 x0 x2 x3 xo (k0_pay2 x1) := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S400x128) hz, View.ld_unit_zero (S := S128x32) hz, View.ld_unit_zero (S := S1x32) hz, View.ld_unit_zero (S := S400x10000) hz, View.ld_unit_zero (S := S32x10000) hz, View.readCov_unit_zero (S := S400x10000) _ hz]

/-! ## The input blocks of a point, and where their entries sit in the arrays -/

/-- The 400 × 128 slab of input features at point t. -/
private abbrev xblk (c : Dev nD) (t : Fin cfg0.N) : Vec Ideal S400x128 .f32 := iblk0 V c 0 t
/-- The 400 × 10000 slab of the incidence matrix at point t. -/
private abbrev ablk (c : Dev nD) (t : Fin cfg0.N) : Vec Ideal S400x10000 .f32 := iblk0 V c 1 t
/-- The transposed weights, the same block at every point. -/
private abbrev wblk (c : Dev nD) (t : Fin cfg0.N) : Vec Ideal S128x32 .f32 := iblk0 V c 2 t
/-- The bias row, the same block at every point. -/
private abbrev bblk (c : Dev nD) (t : Fin cfg0.N) : Vec Ideal S1x32 .f32 := iblk0 V c 3 t

/-- The block index of every window at every point: the slab windows sit at block (t, 0), the others at (0, 0). -/
private theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ win0_5.index t (0 : Fin 2) = t.val ∧ win0_5.index t (1 : Fin 2) = 0
  ∧ win0_6.index t (0 : Fin 2) = 0 ∧ win0_6.index t (1 : Fin 2) = 0 :=
  (by decide +kernel : ∀ t : Fin grid0.N, _)

/-- Row p of slab t. -/
private def row (t : Fin cfg0.N) (p : Fin 400) : Fin 10000 :=
  ⟨400 * t.val + p.val, by have := t.isLt; have hN : cfg0.N = 25 := N_0; have := p.isLt; omega⟩

/-- Entry (p, k) of the feature slab is entry (400·t + p, k) of the feature array. -/
private theorem xblk_at (c : Dev nD) (t : Fin cfg0.N) (p : Fin 400) (k : Fin 128) :
    xblk V c t (ix2 p k) = V c main_arg0 (ix2 (row t p) k) := by
  obtain ⟨e00, e01, -⟩ := idx_facts t
  show V c main_arg0 (((cfg0.win 0).blk t).view.emb (ix2 p k)) = V c main_arg0 (ix2 (row t p) k)
  refine congrArg _ ?_
  funext a; apply Fin.ext
  match a with
  | ⟨0, _⟩ => show win0_0.index t (0 : Fin 2) * 400 + 1 * p.val = 400 * t.val + p.val; omega
  | ⟨1, _⟩ => show win0_0.index t (1 : Fin 2) * 128 + 1 * k.val = k.val; omega

/-- Entry (p, e) of the incidence slab is entry (400·t + p, e) of the incidence matrix. -/
private theorem ablk_at (c : Dev nD) (t : Fin cfg0.N) (p : Fin 400) (e : Fin 10000) :
    ablk V c t (ix2 p e) = V c main_arg1 (ix2 (row t p) e) := by
  obtain ⟨-, -, e10, e11, -⟩ := idx_facts t
  show V c main_arg1 (((cfg0.win 1).blk t).view.emb (ix2 p e)) = V c main_arg1 (ix2 (row t p) e)
  refine congrArg _ ?_
  funext a; apply Fin.ext
  match a with
  | ⟨0, _⟩ => show win0_1.index t (0 : Fin 2) * 400 + 1 * p.val = 400 * t.val + p.val; omega
  | ⟨1, _⟩ => show win0_1.index t (1 : Fin 2) * 10000 + 1 * e.val = e.val; omega

/-- The weight block is the weight array. -/
private theorem wblk_at (c : Dev nD) (t : Fin cfg0.N) (k : Fin 128) (q : Fin 32) :
    wblk V c t (ix2 k q) = V c main_v3 (ix2 k q) := by
  obtain ⟨-, -, -, -, e20, e21, -⟩ := idx_facts t
  show V c main_v3 (((cfg0.win 2).blk t).view.emb (ix2 k q)) = V c main_v3 (ix2 k q)
  refine congrArg _ ?_
  funext a; apply Fin.ext
  match a with
  | ⟨0, _⟩ => show win0_2.index t (0 : Fin 2) * 128 + 1 * k.val = k.val; omega
  | ⟨1, _⟩ => show win0_2.index t (1 : Fin 2) * 32 + 1 * q.val = q.val; omega

/-- The bias block is the bias row. -/
private theorem bblk_at (c : Dev nD) (t : Fin cfg0.N) (q : Fin 32) :
    bblk V c t (ix2 0 q) = V c main_v0 (ix2 0 q) := by
  obtain ⟨-, -, -, -, -, -, e30, e31, -⟩ := idx_facts t
  show V c main_v0 (((cfg0.win 3).blk t).view.emb (ix2 0 q)) = V c main_v0 (ix2 0 q)
  refine congrArg _ ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 32 + 1 * q.val = q.val; omega

/-! ## The node features -/

/-- After any point the node-feature block is the linear layer of that point's input blocks. -/
private theorem out4_eq (c : Dev nD) (t : Fin cfg0.N) :
    (outsAt0 V c t.val t.isLt).1 = k0_pay1 (xblk V c t) (wblk V c t) (bblk V c t) := by
  by_cases h0 : t.val % 25 = 0
  · rw [outsAt0_A V c t h0]; dsimp only
    exact pieceA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]; dsimp only
    exact pieceB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-- Entry (p, q) of the node-feature block of point t is entry (400·t + p, q) of the array. -/
private theorem emb4 (t : Fin cfg0.N) (p : Fin 400) (q : Fin 32) :
    (((cfg0.win 4).blk t).view.emb (ix2 p q) : S10000x32.Idx) = ix2 (row t p) q := by
  obtain ⟨-, -, -, -, -, -, -, -, e40, e41, -⟩ := idx_facts t
  funext a; apply Fin.ext
  match a with
  | ⟨0, _⟩ => show win0_4.index t (0 : Fin 2) * 400 + 1 * p.val = 400 * t.val + p.val; omega
  | ⟨1, _⟩ => show win0_4.index t (1 : Fin 2) * 32 + 1 * q.val = q.val; omega

/-- What point t writes back is its slab of x₀ · wT + b. -/
private theorem flushed4 (c : Dev nD) (t : Fin cfg0.N) :
    (dat0 V c).flushed 4 t = ((cfg0.win 4).blk t).view.read (Elt Ideal) (lin (V c main_arg0) (V c main_v3) (V c main_v0)) := by
  show (cfg0.win 4).cut (grid0.coords t) ((dat0 V c).after 4 t) = _
  rw [after0_4, out4_eq]
  funext j
  obtain ⟨p, q, rfl⟩ : ∃ (p : Fin 400) (q : Fin 32), j = ix2 p q := ⟨j 0, j 1, eq_ix2 j⟩
  rw [View.read_apply, emb4]
  refine (Pay.lin_at (xblk V c t) (wblk V c t) (bblk V c t) p q).trans ?_
  exact congrArg₂ (· + ·) (Finset.sum_congr rfl fun k _ => congrArg₂ (· * ·) (xblk_at V c t p k) (wblk_at V c t k q)) (bblk_at V c t q)

/-- An index lies in the block of point t iff each coordinate lies in the block's range. -/
private theorem mem_blk4 (t : Fin cfg0.N) (i : S10000x32.Idx) :
    i ∈ ((cfg0.win 4).blk t).view.set ↔ ∀ a : Fin 2, win0_4.index t a * S400x32.size a ≤ (i a).val ∧ (i a).val < win0_4.index t a * S400x32.size a + S400x32.size a := by
  show i ∈ ((View.whole main_v4_0).slice (win0_4.rect t)).set ↔ _
  rw [View.set_slice_whole, Rect.mem_set_unit]
  exact Iff.rfl

/-- Row r of the node features lies in slab r / 400, which is written back at its own point. -/
private theorem covered4 (i : S10000x32.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 32 := (i 1).isLt
  refine ⟨⟨(i 0).val / 400, by omega⟩, flush0_4 _, ?_⟩
  rw [mem_blk4]
  obtain ⟨-, -, -, -, -, -, -, -, e40, e41, -⟩ := idx_facts ⟨(i 0).val / 400, by omega⟩
  intro a
  match a with
  | ⟨0, _⟩ =>
    show win0_4.index ⟨(i 0).val / 400, _⟩ (0 : Fin 2) * 400 ≤ (i 0).val ∧ (i 0).val < win0_4.index ⟨(i 0).val / 400, _⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, _⟩ (1 : Fin 2) * 32 ≤ (i 1).val ∧ (i 1).val < win0_4.index ⟨(i 0).val / 400, _⟩ (1 : Fin 2) * 32 + 32
    rw [e41]; omega

/-- The node features: every row slab is written by its own grid point. -/
theorem nodes0 (c : Dev nD) : (dat0 V c).arrAt 4 cfg0.N = lin (V c main_arg0) (V c main_v3) (V c main_v0) :=
  (dat0 V c).arrAt_eq_of_cover 4 (lin (V c main_arg0) (V c main_v3) (V c main_v0)) (fun t _ => flushed4 V c t) covered4

/-! ## The copy of the incidence matrix -/

/-- After any point the copy block is the cast of that point's incidence block. -/
private theorem out5_eq (c : Dev nD) (t : Fin cfg0.N) :
    (outsAt0 V c t.val t.isLt).2.1 = k0_pay2 (ablk V c t) := by
  by_cases h0 : t.val % 25 = 0
  · rw [outsAt0_A V c t h0]; dsimp only
    exact pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]; dsimp only
    exact pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-- Entry (p, e) of the copy block of point t is entry (400·t + p, e) of the array. -/
private theorem emb5 (t : Fin cfg0.N) (p : Fin 400) (e : Fin 10000) :
    (((cfg0.win 5).blk t).view.emb (ix2 p e) : S10000x10000.Idx) = ix2 (row t p) e := by
  obtain ⟨-, -, -, -, -, -, -, -, -, -, e50, e51, -⟩ := idx_facts t
  funext a; apply Fin.ext
  match a with
  | ⟨0, _⟩ => show win0_5.index t (0 : Fin 2) * 400 + 1 * p.val = 400 * t.val + p.val; omega
  | ⟨1, _⟩ => show win0_5.index t (1 : Fin 2) * 10000 + 1 * e.val = e.val; omega

/-- What point t writes back is its slab of the incidence matrix. -/
private theorem flushed5 (c : Dev nD) (t : Fin cfg0.N) :
    (dat0 V c).flushed 5 t = ((cfg0.win 5).blk t).view.read (Elt Ideal) (V c main_arg1) := by
  show (cfg0.win 5).cut (grid0.coords t) ((dat0 V c).after 5 t) = _
  rw [after0_5, out5_eq]
  funext j
  obtain ⟨p, e, rfl⟩ : ∃ (p : Fin 400) (e : Fin 10000), j = ix2 p e := ⟨j 0, j 1, eq_ix2 j⟩
  rw [View.read_apply, emb5]
  exact (Pay.cast_at (ablk V c t) (ix2 p e)).trans (ablk_at V c t p e)

/-- An index lies in the block of point t iff each coordinate lies in the block's range. -/
private theorem mem_blk5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_v4_1).slice (win0_5.rect t)).set ↔ _
  rw [View.set_slice_whole, Rect.mem_set_unit]
  exact Iff.rfl

/-- Row r of the copy lies in slab r / 400, which is written back at its own point. -/
private theorem covered5 (i : S10000x10000.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 10000 := (i 1).isLt
  refine ⟨⟨(i 0).val / 400, by omega⟩, flush0_5 _, ?_⟩
  rw [mem_blk5]
  obtain ⟨-, -, -, -, -, -, -, -, -, -, e50, e51, -⟩ := idx_facts ⟨(i 0).val / 400, by omega⟩
  intro a
  match a with
  | ⟨0, _⟩ =>
    show win0_5.index ⟨(i 0).val / 400, _⟩ (0 : Fin 2) * 400 ≤ (i 0).val ∧ (i 0).val < win0_5.index ⟨(i 0).val / 400, _⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, _⟩ (1 : Fin 2) * 10000 ≤ (i 1).val ∧ (i 1).val < win0_5.index ⟨(i 0).val / 400, _⟩ (1 : Fin 2) * 10000 + 10000
    rw [e51]; omega

/-- The copy of the incidence matrix. -/
theorem copyA (c : Dev nD) : (dat0 V c).arrAt 5 cfg0.N = V c main_arg1 :=
  (dat0 V c).arrAt_eq_of_cover 5 (V c main_arg1) (fun t _ => flushed5 V c t) covered5

/-! ## The transposed aggregate -/

/-- After the first point: zero plus the first slab's contribution. -/
private theorem out6_A (c : Dev nD) (t : Fin cfg0.N) (h0 : t.val % 25 = 0) :
    (outsAt0 V c t.val t.isLt).2.2
      = k0_pay4 (xblk V c t) (wblk V c t) (bblk V c t) (k0_pay3 (F := Ideal)) (k0_pay2 (ablk V c t)) := by
  rw [outsAt0_A V c t h0]; dsimp only
  exact pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)

/-- After a later point: what the point before left plus this slab's contribution. -/
private theorem out6_B (c : Dev nD) (t : Fin cfg0.N) (h0 : ¬t.val % 25 = 0) :
    (outsAt0 V c t.val t.isLt).2.2
      = k0_pay4 (xblk V c t) (wblk V c t) (bblk V c t)
          (outsAt0 V c (t.val - 1) (Nat.lt_of_le_of_lt (Nat.sub_le _ _) t.isLt)).2.2 (k0_pay2 (ablk V c t)) := by
  rw [outsAt0_B V c t h0]; dsimp only
  exact pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-- Row r's contribution x[r,h] · A[r,e] to entry (h, e) of the aggregate, as a function of the natural number r; zero past the last row. -/
private def term (A : Mat 10000 10000) (x : Mat 10000 32) (h : Fin 32) (e : Fin 10000) (r : ℕ) : EReal :=
  if hr : r < 10000 then x (ix2 ⟨r, hr⟩ h) * A (ix2 ⟨r, hr⟩ e) else 0

/-- Adding one slab of 400 rows to the rows below 400·n gives the rows below 400·(n+1). -/
private theorem step_sum (f : ℕ → EReal) (n : ℕ) :
    ∑ r ∈ Finset.range (400 * n), f r + ∑ r ∈ Finset.range 400, f (400 * n + r) = ∑ r ∈ Finset.range (400 * (n + 1)), f r := by
  rw [Nat.mul_succ, Finset.sum_range_add]

/-- The slab of point t contributes the rows 400·t … 400·t+399. -/
private theorem slab_sum (c : Dev nD) (t : Fin cfg0.N) (h : Fin 32) (e : Fin 10000) :
    ∑ r : Fin 400, k0_pay1 (xblk V c t) (wblk V c t) (bblk V c t) (ix2 r h) * k0_pay2 (ablk V c t) (ix2 r e)
      = ∑ r ∈ Finset.range 400, term (V c main_arg1) (lin (V c main_arg0) (V c main_v3) (V c main_v0)) h e (400 * t.val + r) := by
  rw [← Fin.sum_univ_eq_sum_range (fun r => term (V c main_arg1) (lin (V c main_arg0) (V c main_v3) (V c main_v0)) h e (400 * t.val + r)) 400]
  refine Finset.sum_congr rfl fun r _ => ?_
  have hr : 400 * t.val + r.val < 10000 := (row t r).isLt
  show _ = term (V c main_arg1) (lin (V c main_arg0) (V c main_v3) (V c main_v0)) h e (400 * t.val + r.val)
  unfold term; rw [dif_pos hr]
  refine congrArg₂ (· * ·) ?_ ?_
  · refine (Pay.lin_at (xblk V c t) (wblk V c t) (bblk V c t) r h).trans ?_
    exact congrArg₂ (· + ·) (Finset.sum_congr rfl fun k _ => congrArg₂ (· * ·) (xblk_at V c t r k) (wblk_at V c t k h)) (bblk_at V c t h)
  · exact (Pay.cast_at (ablk V c t) (ix2 r e)).trans (ablk_at V c t r e)

/-- After point n the running aggregate at (h, e) is the sum over the rows below 400·(n+1). -/
private theorem acc_eq (c : Dev nD) : ∀ (n : ℕ) (hn : n < cfg0.N) (h : Fin 32) (e : Fin 10000),
    (outsAt0 V c n hn).2.2 (ix2 h e) = ∑ r ∈ Finset.range (400 * (n + 1)), term (V c main_arg1) (lin (V c main_arg0) (V c main_v3) (V c main_v0)) h e r
  | 0, hn, h, e => by
    refine (congrFun (out6_A V c ⟨0, hn⟩ rfl) (ix2 h e)).trans ?_
    refine (Pay.acc0_at (xblk V c ⟨0, hn⟩) (wblk V c ⟨0, hn⟩) (bblk V c ⟨0, hn⟩) (k0_pay3 (F := Ideal)) (k0_pay2 (ablk V c ⟨0, hn⟩)) h e).trans ?_
    rw [Pay.zero0_at, slab_sum]
    show zeroW + ∑ r ∈ Finset.range 400, term (V c main_arg1) (lin (V c main_arg0) (V c main_v3) (V c main_v0)) h e (400 * 0 + r) = _
    rw [show zeroW = (0 : EReal) from Ideal.ofBits_zero_f32, zero_add]
    exact Finset.sum_congr rfl fun r _ => congrArg _ (by omega : 400 * 0 + r = r)
  | n + 1, hn, h, e => by
    have hN : cfg0.N = 25 := N_0
    have hB : ¬(⟨n + 1, hn⟩ : Fin cfg0.N).val % 25 = 0 := by dsimp only; omega
    refine (congrFun (out6_B V c ⟨n + 1, hn⟩ hB) (ix2 h e)).trans ?_
    refine (Pay.acc0_at (xblk V c ⟨n + 1, hn⟩) (wblk V c ⟨n + 1, hn⟩) (bblk V c ⟨n + 1, hn⟩)
      (outsAt0 V c ((⟨n + 1, hn⟩ : Fin cfg0.N).val - 1) (Nat.lt_of_le_of_lt (Nat.sub_le _ _) (⟨n + 1, hn⟩ : Fin cfg0.N).isLt)).2.2
      (k0_pay2 (ablk V c ⟨n + 1, hn⟩)) h e).trans ?_
    rw [slab_sum]
    show (outsAt0 V c n (Nat.lt_of_succ_lt hn)).2.2 (ix2 h e) + ∑ r ∈ Finset.range 400, term (V c main_arg1) (lin (V c main_arg0) (V c main_v3) (V c main_v0)) h e (400 * (n + 1) + r) = _
    rw [acc_eq c n (Nat.lt_of_succ_lt hn) h e, step_sum]

/-- The aggregate's block is the whole array: entry (h, e) of the block is entry (h, e) of the array. -/
private theorem emb6 (t : Fin cfg0.N) (h : Fin 32) (e : Fin 10000) :
    (((cfg0.win 6).blk t).view.emb (ix2 h e) : S32x10000.Idx) = ix2 h e := by
  obtain ⟨-, -, -, -, -, -, -, -, -, -, -, -, e60, e61⟩ := idx_facts t
  funext a; apply Fin.ext
  match a with
  | ⟨0, _⟩ => show win0_6.index t (0 : Fin 2) * 32 + 1 * h.val = h.val; omega
  | ⟨1, _⟩ => show win0_6.index t (1 : Fin 2) * 10000 + 1 * e.val = e.val; omega

/-- The one write-back, after the last slab, writes the sum over all rows. -/
private theorem flushed6 (c : Dev nD) (t : Fin cfg0.N) (hf : (cfg0.win 6).flush t = true) :
    (dat0 V c).flushed 6 t = ((cfg0.win 6).blk t).view.read (Elt Ideal) (aggT (V c main_arg1) (lin (V c main_arg0) (V c main_v3) (V c main_v0))) := by
  have hN : cfg0.N = 25 := N_0
  have h24 : t.val = 24 := by have := (flush0_6 t).mp hf; have := t.isLt; omega
  show (cfg0.win 6).cut (grid0.coords t) ((dat0 V c).after 6 t) = _
  rw [after0_6]
  funext j
  obtain ⟨h, e, rfl⟩ : ∃ (h : Fin 32) (e : Fin 10000), j = ix2 h e := ⟨j 0, j 1, eq_ix2 j⟩
  rw [View.read_apply, emb6]
  refine (acc_eq V c t.val t.isLt h e).trans ?_
  rw [h24]
  show ∑ r ∈ Finset.range 10000, term (V c main_arg1) (lin (V c main_arg0) (V c main_v3) (V c main_v0)) h e r = ∑ n : Fin 10000, (lin (V c main_arg0) (V c main_v3) (V c main_v0)) (ix2 n h) * V c main_arg1 (ix2 n e)
  rw [← Fin.sum_univ_eq_sum_range (term (V c main_arg1) (lin (V c main_arg0) (V c main_v3) (V c main_v0)) h e) 10000]
  exact Finset.sum_congr rfl fun r _ => dif_pos r.isLt

/-- An index lies in the block of point t iff each coordinate lies in the block's range. -/
private theorem mem_blk6 (t : Fin cfg0.N) (i : S32x10000.Idx) :
    i ∈ ((cfg0.win 6).blk t).view.set ↔ ∀ a : Fin 2, win0_6.index t a * S32x10000.size a ≤ (i a).val ∧ (i a).val < win0_6.index t a * S32x10000.size a + S32x10000.size a := by
  show i ∈ ((View.whole main_v4_2).slice (win0_6.rect t)).set ↔ _
  rw [View.set_slice_whole, Rect.mem_set_unit]
  exact Iff.rfl

/-- The aggregate's one block is the whole array, written back at the last point. -/
private theorem covered6 (i : S32x10000.Idx) :
    ∃ t : Fin cfg0.N, (cfg0.win 6).flush t = true ∧ i ∈ ((cfg0.win 6).blk t).view.set := by
  have hN : cfg0.N = 25 := N_0
  have hi0 : (i 0).val < 32 := (i 0).isLt
  have hi1 : (i 1).val < 10000 := (i 1).isLt
  refine ⟨⟨24, by omega⟩, (flush0_6 _).mpr rfl, ?_⟩
  rw [mem_blk6]
  obtain ⟨-, -, -, -, -, -, -, -, -, -, -, -, e60, e61⟩ := idx_facts ⟨24, by omega⟩
  intro a
  match a with
  | ⟨0, _⟩ =>
    show win0_6.index ⟨24, _⟩ (0 : Fin 2) * 32 ≤ (i 0).val ∧ (i 0).val < win0_6.index ⟨24, _⟩ (0 : Fin 2) * 32 + 32
    rw [e60]; omega
  | ⟨1, _⟩ =>
    show win0_6.index ⟨24, _⟩ (1 : Fin 2) * 10000 ≤ (i 1).val ∧ (i 1).val < win0_6.index ⟨24, _⟩ (1 : Fin 2) * 10000 + 10000
    rw [e61]; omega

/-- The transposed aggregate after the last slab. -/
theorem edgesT0 (c : Dev nD) :
    (dat0 V c).arrAt 6 cfg0.N = aggT (V c main_arg1) (lin (V c main_arg0) (V c main_v3) (V c main_v0)) :=
  (dat0 V c).arrAt_eq_of_cover 6 (aggT (V c main_arg1) (lin (V c main_arg0) (V c main_v3) (V c main_v0))) (fun t hf => flushed6 V c t hf) covered6

end Cert.KernelIdeal.Reg0

end
-- ==== Proof.Reg1.lean ====
/-
  Pass 2, from whatever its arrays hold when it is entered: over 25 slabs of 400 rows it leaves the layer's updated
  node features xn = max((x + A · x₁) · wT + b, 0) (each slab written to its own rows) and the transposed aggregate
  Σₙ xn[n,h] · A[n,e] of those NEW features, accumulated slab by slab from zero.

  Slab t reads rows 400·t … 400·t + 399 of A and of x and the whole of x₁, wT and b, so entry (p, q) of what it
  computes is the update's entry (400·t + p, q); the 25 slabs' blocks tile the 10000 rows, which gives the first
  array. The aggregate is one 32 × 10000 block that every slab revisits: the first slab resets it to zero, and every
  slab adds Σ_{r < 400} xn[400·t + r, h] · A[400·t + r, e] of the slab it has just computed. By induction on the slab,
  after slab n it holds the sum of xn[r,h] · A[r,e] over the rows r < 400·(n + 1) — only the splitting of a sum at a
  slab boundary and 0 + s = s are used — and after the last slab that is the sum over all 10000 rows, written back
  once.
-/
import proofs.«108442_g68453188763984_cont_9to1_m_933_10_alg».proof.Proof.Gen.KernelIdeal.Frame
import proofs.«108442_g68453188763984_cont_9to1_m_933_10_alg».proof.Proof.Spec
import proofs.«108442_g68453188763984_cont_9to1_m_933_10_alg».proof.Proof.Payloads
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Reg1

open Cert.KernelIdeal Cert.KernelIdeal.Gen Cert.HyperGin
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## What one run of the body leaves in the two staging blocks -/

/-- The zero offsets of a rectangle that is its whole block. -/
private theorem hz : (![0, 0] : Fin 2 → Nat) = fun _ => 0 := funext fun a => by fin_cases a <;> rfl

/-- First slab: the node block holds the slab's update of the five input blocks. -/
private theorem nodes_A (c : Dev nD) (i : grid1.Coords) (a1 : Memref sig .tc .vmem S400x10000 .bf16) (h1 : a1.IsWhole) (a2 : Memref sig .tc .vmem S400x32 .f32) (h2 : a2.IsWhole) (a3 : Memref sig .tc .vmem S10000x32 .bf16) (h3 : a3.IsWhole) (a4 : Memref sig .tc .vmem S32x32 .f32) (h4 : a4.IsWhole) (a5 : Memref sig .tc .vmem S1x32 .f32) (h5 : a5.IsWhole) (a6 : Memref sig .tc .vmem S400x32 .f32) (h6 : a6.IsWhole) (a7 : Memref sig .tc .vmem S32x10000 .f32) (h7 : a7.IsWhole) (hc : cond1_0 i) (x0 : Vec Ideal S400x10000 .bf16) (x1 : Vec Ideal S400x32 .f32) (x2 : Vec Ideal S10000x32 .bf16) (x3 : Vec Ideal S32x32 .f32) (x4 : Vec Ideal S1x32 .f32) :
    out1_A_5 (F := Ideal) c i a1 h1 a2 h2 a3 h3 a4 h4 a5 h5 a6 h6 a7 h7 hc x0 x1 x2 x3 x4 = k1_pay1 (F := Ideal) x0 x2 x1 x3 x4 := by
  unfold out1_A_5
  rw [View.read_writes_eq_canon _ _ _ (cover1_A_5 c i a1 h1 a2 h2 a3 h3 a4 h4 a5 h5 a6 h6 a7 h7 hc x0 x1 x2 x3 x4)]
  unfold kernelRun1_A
  dsimp only
  sl_unfold_words
  rw [View.canon_unit_zero hz]
  simp only [View.readAt_eq_ld, h1.read_unread, h2.read_unread, h3.read_unread, h4.read_unread, h5.read_unread,
    View.ld_unit_zero (S := S400x10000) hz, View.ld_unit_zero (S := S400x32) hz, View.ld_unit_zero (S := S10000x32) hz,
    View.ld_unit_zero (S := S32x32) hz, View.ld_unit_zero (S := S1x32) hz]

/-- A later slab: the same, whatever the aggregate block holds. -/
private theorem nodes_B (c : Dev nD) (i : grid1.Coords) (a1 : Memref sig .tc .vmem S400x10000 .bf16) (h1 : a1.IsWhole) (a2 : Memref sig .tc .vmem S400x32 .f32) (h2 : a2.IsWhole) (a3 : Memref sig .tc .vmem S10000x32 .bf16) (h3 : a3.IsWhole) (a4 : Memref sig .tc .vmem S32x32 .f32) (h4 : a4.IsWhole) (a5 : Memref sig .tc .vmem S1x32 .f32) (h5 : a5.IsWhole) (a6 : Memref sig .tc .vmem S400x32 .f32) (h6 : a6.IsWhole) (a7 : Memref sig .tc .vmem S32x10000 .f32) (h7 : a7.IsWhole) (hc : ¬cond1_0 i) (x0 : Vec Ideal S400x10000 .bf16) (x1 : Vec Ideal S400x32 .f32) (x2 : Vec Ideal S10000x32 .bf16) (x3 : Vec Ideal S32x32 .f32) (x4 : Vec Ideal S1x32 .f32) (xo : Vec Ideal S32x10000 .f32) :
    out1_B_5 (F := Ideal) c i a1 h1 a2 h2 a3 h3 a4 h4 a5 h5 a6 h6 a7 h7 hc x0 x1 x2 x3 x4 xo = k1_pay1 (F := Ideal) x0 x2 x1 x3 x4 := by
  unfold out1_B_5
  rw [View.read_writes_eq_canon _ _ _ (cover1_B_5 c i a1 h1 a2 h2 a3 h3 a4 h4 a5 h5 a6 h6 a7 h7 hc x0 x1 x2 x3 x4 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S400x10000) hz, View.ld_unit_zero (S := S400x32) hz, View.ld_unit_zero (S := S10000x32) hz,
    View.ld_unit_zero (S := S32x32) hz, View.ld_unit_zero (S := S1x32) hz]

/-- First slab: the aggregate block is stored as zero, read back, and left at zero plus the slab's xnᵀ · A, the
    incidence block being read a second time. -/
private theorem edges_A (c : Dev nD) (i : grid1.Coords) (a1 : Memref sig .tc .vmem S400x10000 .bf16) (h1 : a1.IsWhole) (a2 : Memref sig .tc .vmem S400x32 .f32) (h2 : a2.IsWhole) (a3 : Memref sig .tc .vmem S10000x32 .bf16) (h3 : a3.IsWhole) (a4 : Memref sig .tc .vmem S32x32 .f32) (h4 : a4.IsWhole) (a5 : Memref sig .tc .vmem S1x32 .f32) (h5 : a5.IsWhole) (a6 : Memref sig .tc .vmem S400x32 .f32) (h6 : a6.IsWhole) (a7 : Memref sig .tc .vmem S32x10000 .f32) (h7 : a7.IsWhole) (hc : cond1_0 i) (x0 : Vec Ideal S400x10000 .bf16) (x1 : Vec Ideal S400x32 .f32) (x2 : Vec Ideal S10000x32 .bf16) (x3 : Vec Ideal S32x32 .f32) (x4 : Vec Ideal S1x32 .f32) :
    out1_A_6 (F := Ideal) c i a1 h1 a2 h2 a3 h3 a4 h4 a5 h5 a6 h6 a7 h7 hc x0 x1 x2 x3 x4 = k1_pay3 (F := Ideal) x0 x2 x1 x3 x4 (k1_pay2 (F := Ideal)) x0 := by
  unfold out1_A_6
  rw [View.read_writes_eq_canon _ _ _ (cover1_A_6 c i a1 h1 a2 h2 a3 h3 a4 h4 a5 h5 a6 h6 a7 h7 hc x0 x1 x2 x3 x4)]
  unfold kernelRun1_A
  dsimp only
  sl_unfold_words
  rw [View.canon_cons_unit_zero (S := S32x10000) hz, View.readCov_unit_zero (S := S32x10000) _ hz]
  simp only [View.readAt_eq_ld, h1.read_unread, h2.read_unread, h3.read_unread, h4.read_unread, h5.read_unread,
    View.ld_unit_zero (S := S400x10000) hz, View.ld_unit_zero (S := S400x32) hz, View.ld_unit_zero (S := S10000x32) hz,
    View.ld_unit_zero (S := S32x32) hz, View.ld_unit_zero (S := S1x32) hz]

/-- A later slab: the aggregate block holding xo is left at xo plus the slab's xnᵀ · A. -/
private theorem edges_B (c : Dev nD) (i : grid1.Coords) (a1 : Memref sig .tc .vmem S400x10000 .bf16) (h1 : a1.IsWhole) (a2 : Memref sig .tc .vmem S400x32 .f32) (h2 : a2.IsWhole) (a3 : Memref sig .tc .vmem S10000x32 .bf16) (h3 : a3.IsWhole) (a4 : Memref sig .tc .vmem S32x32 .f32) (h4 : a4.IsWhole) (a5 : Memref sig .tc .vmem S1x32 .f32) (h5 : a5.IsWhole) (a6 : Memref sig .tc .vmem S400x32 .f32) (h6 : a6.IsWhole) (a7 : Memref sig .tc .vmem S32x10000 .f32) (h7 : a7.IsWhole) (hc : ¬cond1_0 i) (x0 : Vec Ideal S400x10000 .bf16) (x1 : Vec Ideal S400x32 .f32) (x2 : Vec Ideal S10000x32 .bf16) (x3 : Vec Ideal S32x32 .f32) (x4 : Vec Ideal S1x32 .f32) (xo : Vec Ideal S32x10000 .f32) :
    out1_B_6 (F := Ideal) c i a1 h1 a2 h2 a3 h3 a4 h4 a5 h5 a6 h6 a7 h7 hc x0 x1 x2 x3 x4 xo = k1_pay3 (F := Ideal) x0 x2 x1 x3 x4 xo x0 := by
  unfold out1_B_6
  rw [View.read_writes_eq_canon _ _ _ (cover1_B_6 c i a1 h1 a2 h2 a3 h3 a4 h4 a5 h5 a6 h6 a7 h7 hc x0 x1 x2 x3 x4 xo)]
  unfold kernelRun1_B
  dsimp only
  sl_unfold_words
  rw [View.canon_unit_zero hz]
  simp only [View.readAt_eq_ld, h1.read_unread, h2.read_unread, h3.read_unread, h4.read_unread, h5.read_unread, h7.read_unread,
    View.ld_unit_zero (S := S400x10000) hz, View.ld_unit_zero (S := S400x32) hz, View.ld_unit_zero (S := S10000x32) hz,
    View.ld_unit_zero (S := S32x32) hz, View.ld_unit_zero (S := S1x32) hz, View.ld_unit_zero (S := S32x10000) hz]

/-! ## The slab's input blocks, as rows of the arrays -/

/-- The block indices over the 25 slabs: the incidence slab, the feature slab and the written slab are block (t, 0) of
    their arrays; the hyperedge features, the weights, the bias row and the aggregate are their arrays' one block. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

/-- The incidence matrix A as the pass finds it. -/
private abbrev Aarr (c : Dev nD) : Mat 10000 10000 := V c main_v4_1
/-- The node features x as the pass finds them. -/
private abbrev xarr (c : Dev nD) : Mat 10000 32 := V c main_v4_0
/-- The hyperedge features x₁. -/
private abbrev x1arr (c : Dev nD) : Mat 10000 32 := V c main_v6
/-- The transposed weights wT. -/
private abbrev warr (c : Dev nD) : Mat 32 32 := V c main_v7
/-- The bias row b. -/
private abbrev barr (c : Dev nD) : Mat 1 32 := V c main_v1

/-- Slab t's block of the incidence matrix. -/
private abbrev Ablk (c : Dev nD) (t : Fin cfg1.N) : Vec Ideal S400x10000 .bf16 := iblk1 V c 0 t
/-- Slab t's block of the node features. -/
private abbrev xblk (c : Dev nD) (t : Fin cfg1.N) : Vec Ideal S400x32 .f32 := iblk1 V c 1 t
/-- The hyperedge features, staged whole. -/
private abbrev x1blk (c : Dev nD) (t : Fin cfg1.N) : Vec Ideal S10000x32 .bf16 := iblk1 V c 2 t
/-- The weights, staged whole. -/
private abbrev wblk (c : Dev nD) (t : Fin cfg1.N) : Vec Ideal S32x32 .f32 := iblk1 V c 3 t
/-- The bias row, staged whole. -/
private abbrev bblk (c : Dev nD) (t : Fin cfg1.N) : Vec Ideal S1x32 .f32 := iblk1 V c 4 t

/-- Row p of slab t is a row of the arrays: 400·t + p < 10000. -/
private theorem row_lt (t : Fin cfg1.N) (p : Fin 400) : 400 * t.val + p.val < 10000 := by
  have hN : cfg1.N = 25 := N_1
  have := t.isLt; have := p.isLt; omega

/-- Row p of slab t's incidence block is row 400·t + p of A. -/
private theorem Ablk_at (c : Dev nD) (t : Fin cfg1.N) (p : Fin 400) (e : Fin 10000) :
    Ablk V c t (ix2 p e) = Aarr V c (ix2 ⟨400 * t.val + p.val, row_lt t p⟩ e) := by
  obtain ⟨e0, e1, -⟩ := idx_facts t
  show iblk1 V c 0 t (ix2 p e) = _
  unfold iblk1
  rw [View.read_apply]
  show V c main_v4_1 _ = V c main_v4_1 _
  congr 1
  funext a; apply Fin.ext
  match a with
  | ⟨0, _⟩ => show win1_0.index t (0 : Fin 2) * 400 + 1 * p.val = 400 * t.val + p.val; omega
  | ⟨1, _⟩ => show win1_0.index t (1 : Fin 2) * 10000 + 1 * e.val = e.val; omega

/-- Row p of slab t's feature block is row 400·t + p of x. -/
private theorem xblk_at (c : Dev nD) (t : Fin cfg1.N) (p : Fin 400) (j : Fin 32) :
    xblk V c t (ix2 p j) = xarr V c (ix2 ⟨400 * t.val + p.val, row_lt t p⟩ j) := by
  obtain ⟨-, -, e0, e1, -⟩ := idx_facts t
  show iblk1 V c 1 t (ix2 p j) = _
  unfold iblk1
  rw [View.read_apply]
  show V c main_v4_0 _ = V c main_v4_0 _
  congr 1
  funext a; apply Fin.ext
  match a with
  | ⟨0, _⟩ => show win1_1.index t (0 : Fin 2) * 400 + 1 * p.val = 400 * t.val + p.val; omega
  | ⟨1, _⟩ => show win1_1.index t (1 : Fin 2) * 32 + 1 * j.val = j.val; omega

/-- The staged hyperedge features are x₁. -/
private theorem x1blk_at (c : Dev nD) (t : Fin cfg1.N) (e : Fin 10000) (j : Fin 32) :
    x1blk V c t (ix2 e j) = x1arr V c (ix2 e j) := by
  obtain ⟨-, -, -, -, e0, e1, -⟩ := idx_facts t
  show iblk1 V c 2 t (ix2 e j) = _
  unfold iblk1
  rw [View.read_apply]
  show V c main_v6 _ = V c main_v6 _
  congr 1
  funext a; apply Fin.ext
  match a with
  | ⟨0, _⟩ => show win1_2.index t (0 : Fin 2) * 10000 + 1 * e.val = e.val; omega
  | ⟨1, _⟩ => show win1_2.index t (1 : Fin 2) * 32 + 1 * j.val = j.val; omega

/-- The staged weights are wT. -/
private theorem wblk_at (c : Dev nD) (t : Fin cfg1.N) (j q : Fin 32) :
    wblk V c t (ix2 j q) = warr V c (ix2 j q) := by
  obtain ⟨-, -, -, -, -, -, e0, e1, -⟩ := idx_facts t
  show iblk1 V c 3 t (ix2 j q) = _
  unfold iblk1
  rw [View.read_apply]
  show V c main_v7 _ = V c main_v7 _
  congr 1
  funext a; apply Fin.ext
  match a with
  | ⟨0, _⟩ => show win1_3.index t (0 : Fin 2) * 32 + 1 * j.val = j.val; omega
  | ⟨1, _⟩ => show win1_3.index t (1 : Fin 2) * 32 + 1 * q.val = q.val; omega

/-- The staged bias row is b. -/
private theorem bblk_at (c : Dev nD) (t : Fin cfg1.N) (z : Fin 1) (q : Fin 32) :
    bblk V c t (ix2 z q) = barr V c (ix2 z q) := by
  obtain ⟨-, -, -, -, -, -, -, -, e0, e1, -⟩ := idx_facts t
  show iblk1 V c 4 t (ix2 z q) = _
  unfold iblk1
  rw [View.read_apply]
  show V c main_v1 _ = V c main_v1 _
  congr 1
  funext a; apply Fin.ext
  match a with
  | ⟨0, _⟩ => show win1_4.index t (0 : Fin 2) * 1 + 1 * z.val = z.val; omega
  | ⟨1, _⟩ => show win1_4.index t (1 : Fin 2) * 32 + 1 * q.val = q.val; omega

/-! ## The node features: each slab writes its own rows of the update -/

/-- The update of the arrays as the pass finds them. -/
private abbrev target (c : Dev nD) : Mat 10000 32 := upd (Aarr V c) (xarr V c) (x1arr V c) (warr V c) (barr V c)

/-- What slab t computes from its input blocks: its 400 rows of updated features. -/
private abbrev slab (c : Dev nD) (t : Fin cfg1.N) : Vec Ideal S400x32 .f32 :=
  k1_pay1 (F := Ideal) (Ablk V c t) (x1blk V c t) (xblk V c t) (wblk V c t) (bblk V c t)

/-- Entry (p, q) of slab t's features is the update's entry (400·t + p, q). -/
private theorem slab_at (c : Dev nD) (t : Fin cfg1.N) (p : Fin 400) (q : Fin 32) :
    slab V c t (ix2 p q)
      = updAt (Aarr V c) (xarr V c) (x1arr V c) (warr V c) (barr V c) ⟨400 * t.val + p.val, row_lt t p⟩ q := by
  refine (Pay.upd1_at (Ablk V c t) (x1blk V c t) (xblk V c t) (wblk V c t) (bblk V c t) p q).trans ?_
  unfold updAt
  simp only [Ablk_at, xblk_at, x1blk_at, wblk_at, bblk_at]

/-- After any slab, first or later, the node block holds that slab's features. -/
private theorem nodes_at (c : Dev nD) (t : Fin cfg1.N) : (outsAt1 V c t.val t.isLt).1 = slab V c t := by
  by_cases h0 : t.val % 25 = 0
  · rw [outsAt1_A V c t h0]; dsimp only
    exact nodes_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)
  · rw [outsAt1_B V c t h0]; dsimp only
    exact nodes_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2

/-- Slab t writes back block t of the update. -/
private theorem flushed5_eq (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5, nodes_at V c t]
  obtain ⟨-, -, -, -, -, -, -, -, -, -, e0, e1, -⟩ := idx_facts t
  funext j
  obtain ⟨p, q, rfl⟩ : ∃ (p : Fin 400) (q : Fin 32), j = ix2 p q := ⟨j 0, j 1, eq_ix2 j⟩
  refine (slab_at V c t p q).trans ?_
  show updAt (Aarr V c) (xarr V c) (x1arr V c) (warr V c) (barr V c) ⟨400 * t.val + p.val, _⟩ q
    = updAt (Aarr V c) (xarr V c) (x1arr V c) (warr V c) (barr V c)
        ((((cfg1.win 5).blk t).view.emb (ix2 p q)) 0) ((((cfg1.win 5).blk t).view.emb (ix2 p q)) 1)
  congr 1
  · apply Fin.ext
    show 400 * t.val + p.val = win1_5.index t (0 : Fin 2) * 400 + 1 * p.val
    omega
  · apply Fin.ext
    show q.val = win1_5.index t (1 : Fin 2) * 32 + 1 * q.val
    omega

/-- An index of the node array is in slab t's block iff each coordinate is in the block's range on its axis. -/
private theorem mem_blk5 (t : Fin cfg1.N) (i : S10000x32.Idx) :
    i ∈ ((cfg1.win 5).blk t).view.set ↔ ∀ a : Fin 2, win1_5.index t a * S400x32.size a ≤ (i a).val ∧ (i a).val < win1_5.index t a * S400x32.size a + S400x32.size a := by
  show i ∈ ((View.whole main_v8_0).slice (win1_5.rect t)).set ↔ _
  rw [View.set_slice_whole, Rect.mem_set_unit]
  exact Iff.rfl

/-- Row r of the node array lies in slab r / 400, which is written back. -/
private theorem covered5 (i : S10000x32.Idx) :
    ∃ t : Fin cfg1.N, (cfg1.win 5).flush t = true ∧ i ∈ ((cfg1.win 5).blk t).view.set := by
  have hN : cfg1.N = 25 := N_1
  have hi0 : (i 0).val < 10000 := (i 0).isLt
  have hi1 : (i 1).val < 32 := (i 1).isLt
  obtain ⟨t, ht⟩ : ∃ t : Fin cfg1.N, t.val = (i 0).val / 400 := ⟨⟨(i 0).val / 400, by omega⟩, rfl⟩
  obtain ⟨-, -, -, -, -, -, -, -, -, -, e0, e1, -⟩ := idx_facts t
  refine ⟨t, flush1_5 t, ?_⟩
  rw [mem_blk5]
  intro a
  match a with
  | ⟨0, _⟩ =>
    show win1_5.index t (0 : Fin 2) * 400 ≤ (i 0).val ∧ (i 0).val < win1_5.index t (0 : Fin 2) * 400 + 400
    omega
  | ⟨1, _⟩ =>
    show win1_5.index t (1 : Fin 2) * 32 ≤ (i 1).val ∧ (i 1).val < win1_5.index t (1 : Fin 2) * 32 + 32
    omega

/-- The updated node features. -/
theorem nodes1 (c : Dev nD) :
    (dat1 V c).arrAt 5 cfg1.N = upd (V c main_v4_1) (V c main_v4_0) (V c main_v6) (V c main_v7) (V c main_v1) :=
  (dat1 V c).arrAt_eq_of_cover 5 (target V c) (fun t _ => flushed5_eq V c t) covered5

/-! ## The aggregate: one block, reset at the first slab and added to at every slab -/

/-- Row r's term of the aggregate at (h, e): xn[r,h] · A[r,e] of the updated features xn; zero past the last row. -/
private def rowTerm (c : Dev nD) (h : Fin 32) (e : Fin 10000) (r : ℕ) : EReal :=
  if hr : r < 10000 then
    updAt (Aarr V c) (xarr V c) (x1arr V c) (warr V c) (barr V c) ⟨r, hr⟩ h * Aarr V c (ix2 ⟨r, hr⟩ e)
  else 0

/-- Row r of slab t contributes row 400·t + r's term. -/
private theorem rowTerm_slab (c : Dev nD) (t : Fin cfg1.N) (h : Fin 32) (e : Fin 10000) (r : Fin 400) :
    slab V c t (ix2 r h) * Ablk V c t (ix2 r e) = rowTerm V c h e (400 * t.val + r.val) := by
  unfold rowTerm
  rw [dif_pos (row_lt t r), slab_at, Ablk_at]

/-- Slab t's contribution xnᵀ·A at (h, e) is the terms of its 400 rows. -/
private theorem step_sum (c : Dev nD) (t : Fin cfg1.N) (h : Fin 32) (e : Fin 10000) :
    ∑ r : Fin 400, slab V c t (ix2 r h) * Ablk V c t (ix2 r e)
      = ∑ r ∈ Finset.range 400, rowTerm V c h e (400 * t.val + r) := by
  rw [← Fin.sum_univ_eq_sum_range (fun r => rowTerm V c h e (400 * t.val + r)) 400]
  exact Finset.sum_congr rfl fun r _ => rowTerm_slab V c t h e r

/-- At the first slab the aggregate is reset to zero and then takes the slab's contribution. -/
private theorem edges_first (c : Dev nD) (t : Fin cfg1.N) (h0 : t.val % 25 = 0) (h : Fin 32) (e : Fin 10000) :
    (outsAt1 V c t.val t.isLt).2 (ix2 h e)
      = zeroW + ∑ r : Fin 400, slab V c t (ix2 r h) * Ablk V c t (ix2 r e) := by
  rw [outsAt1_A V c t h0]; dsimp only
  refine (congrFun (edges_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix2 h e)).trans ?_
  refine (Pay.acc1_at (Ablk V c t) (x1blk V c t) (xblk V c t) (wblk V c t) (bblk V c t) (k1_pay2 (F := Ideal)) (Ablk V c t) h e).trans ?_
  rw [Pay.zero1_at]

/-- At every later slab the aggregate is what the slab before left plus the slab's contribution. -/
private theorem edges_next (c : Dev nD) (t : Fin cfg1.N) (h0 : ¬t.val % 25 = 0) (h : Fin 32) (e : Fin 10000) :
    (outsAt1 V c t.val t.isLt).2 (ix2 h e)
      = (outsAt1 V c (t.val - 1) (Nat.lt_of_le_of_lt (Nat.sub_le _ _) t.isLt)).2 (ix2 h e)
        + ∑ r : Fin 400, slab V c t (ix2 r h) * Ablk V c t (ix2 r e) := by
  rw [outsAt1_B V c t h0]; dsimp only
  refine (congrFun (edges_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun hh => h0 ((hcond1_0 t).mp hh)) (iblk1 V c 0 t) (iblk1 V c 1 t) (iblk1 V c 2 t) (iblk1 V c 3 t) (iblk1 V c 4 t)
    (outsAt1 V c (t.val - 1) (Nat.lt_of_le_of_lt (Nat.sub_le _ _) t.isLt)).2) (ix2 h e)).trans ?_
  exact Pay.acc1_at (Ablk V c t) (x1blk V c t) (xblk V c t) (wblk V c t) (bblk V c t)
    (outsAt1 V c (t.val - 1) (Nat.lt_of_le_of_lt (Nat.sub_le _ _) t.isLt)).2 (Ablk V c t) h e

/-- After slab n the aggregate at (h, e) is the sum of the terms of the rows below 400·(n + 1). -/
private theorem edges_at (c : Dev nD) : ∀ (n : ℕ) (hn : n < cfg1.N) (h : Fin 32) (e : Fin 10000),
    (outsAt1 V c n hn).2 (ix2 h e) = ∑ r ∈ Finset.range (400 * (n + 1)), rowTerm V c h e r
  | 0, hn, h, e => by
    refine (edges_first V c ⟨0, hn⟩ rfl h e).trans ?_
    rw [step_sum]
    show zeroW + ∑ r ∈ Finset.range 400, rowTerm V c h e (400 * 0 + r) = _
    rw [show zeroW = (0 : EReal) from Ideal.ofBits_zero_f32, zero_add]
    simp only [Nat.mul_zero, Nat.zero_add, Nat.mul_one]
  | n + 1, hn, h, e => by
    have hN : cfg1.N = 25 := N_1
    have hB : ¬(⟨n + 1, hn⟩ : Fin cfg1.N).val % 25 = 0 := by dsimp only; omega
    refine (edges_next V c ⟨n + 1, hn⟩ hB h e).trans ?_
    rw [step_sum]
    show (outsAt1 V c n (Nat.lt_of_succ_lt hn)).2 (ix2 h e) + ∑ r ∈ Finset.range 400, rowTerm V c h e (400 * (n + 1) + r) = _
    rw [edges_at c n (Nat.lt_of_succ_lt hn) h e, ← Finset.sum_range_add,
      show 400 * (n + 1) + 400 = 400 * (n + 1 + 1) by omega]

/-- The transposed aggregate of the update. -/
private abbrev target6 (c : Dev nD) : Mat 32 10000 := aggT (Aarr V c) (target V c)

/-- All 10000 rows' terms are the aggregate's entry. -/
private theorem total (c : Dev nD) (h : Fin 32) (e : Fin 10000) :
    ∑ r ∈ Finset.range 10000, rowTerm V c h e r = aggTAt (Aarr V c) (target V c) h e := by
  unfold aggTAt
  rw [← Fin.sum_univ_eq_sum_range (rowTerm V c h e) 10000]
  refine Finset.sum_congr rfl fun n _ => ?_
  unfold rowTerm
  rw [dif_pos n.isLt]
  rfl

/-- The one write-back, after the last slab, writes the whole aggregate: all 25 slabs' rows are summed by then, and the
    block is the array. -/
private theorem flushed6_eq (c : Dev nD) (t : Fin cfg1.N) (hf : (cfg1.win 6).flush t = true) :
    (dat1 V c).flushed 6 t = ((cfg1.win 6).blk t).view.read (Elt Ideal) (target6 V c) := by
  have hN : cfg1.N = 25 := N_1
  have h24 : t.val = 24 := by have := (flush1_6 t).mp hf; have := t.isLt; omega
  obtain ⟨-, -, -, -, -, -, -, -, -, -, -, -, e0, e1⟩ := idx_facts t
  show (cfg1.win 6).cut (grid1.coords t) ((dat1 V c).after 6 t) = _
  rw [after1_6]
  funext j
  obtain ⟨h, e, rfl⟩ : ∃ (h : Fin 32) (e : Fin 10000), j = ix2 h e := ⟨j 0, j 1, eq_ix2 j⟩
  refine (edges_at V c t.val t.isLt h e).trans ?_
  rw [show 400 * (t.val + 1) = 10000 by omega, total]
  show aggTAt (Aarr V c) (target V c) h e
    = aggTAt (Aarr V c) (target V c) ((((cfg1.win 6).blk t).view.emb (ix2 h e)) 0) ((((cfg1.win 6).blk t).view.emb (ix2 h e)) 1)
  congr 1
  · apply Fin.ext
    show h.val = win1_6.index t (0 : Fin 2) * 32 + 1 * h.val
    omega
  · apply Fin.ext
    show e.val = win1_6.index t (1 : Fin 2) * 10000 + 1 * e.val
    omega

/-- An index of the aggregate array is in the block iff each coordinate is in the block's range on its axis. -/
private theorem mem_blk6 (t : Fin cfg1.N) (i : S32x10000.Idx) :
    i ∈ ((cfg1.win 6).blk t).view.set ↔ ∀ a : Fin 2, win1_6.index t a * S32x10000.size a ≤ (i a).val ∧ (i a).val < win1_6.index t a * S32x10000.size a + S32x10000.size a := by
  show i ∈ ((View.whole main_v8_1).slice (win1_6.rect t)).set ↔ _
  rw [View.set_slice_whole, Rect.mem_set_unit]
  exact Iff.rfl

/-- Every index of the aggregate array is in the last slab's block, which is written back. -/
private theorem covered6 (i : S32x10000.Idx) :
    ∃ t : Fin cfg1.N, (cfg1.win 6).flush t = true ∧ i ∈ ((cfg1.win 6).blk t).view.set := by
  have hN : cfg1.N = 25 := N_1
  have hi0 : (i 0).val < 32 := (i 0).isLt
  have hi1 : (i 1).val < 10000 := (i 1).isLt
  obtain ⟨t, ht⟩ : ∃ t : Fin cfg1.N, t.val = 24 := ⟨⟨24, by omega⟩, rfl⟩
  obtain ⟨-, -, -, -, -, -, -, -, -, -, -, -, e0, e1⟩ := idx_facts t
  refine ⟨t, (flush1_6 t).mpr (by omega), ?_⟩
  rw [mem_blk6]
  intro a
  match a with
  | ⟨0, _⟩ =>
    show win1_6.index t (0 : Fin 2) * 32 ≤ (i 0).val ∧ (i 0).val < win1_6.index t (0 : Fin 2) * 32 + 32
    omega
  | ⟨1, _⟩ =>
    show win1_6.index t (1 : Fin 2) * 10000 ≤ (i 1).val ∧ (i 1).val < win1_6.index t (1 : Fin 2) * 10000 + 10000
    omega

/-- The transposed aggregate of the updated features after the last slab. -/
theorem edgesT1 (c : Dev nD) :
    (dat1 V c).arrAt 6 cfg1.N
      = aggT (V c main_v4_1) (upd (V c main_v4_1) (V c main_v4_0) (V c main_v6) (V c main_v7) (V c main_v1)) :=
  (dat1 V c).arrAt_eq_of_cover 6 (target6 V c) (flushed6_eq V c) covered6

end Cert.KernelIdeal.Reg1

end
-- ==== Proof.Reg2.lean ====
/-
  Pass 3, from whatever its arrays hold when it is entered: over 25 slabs of 400 rows it leaves the layer's updated
  node features max((x + A · x₁) · wT + b, 0), each slab written to its own rows.

  Slab t reads rows 400·t … 400·t+399 of the incidence matrix A and of the node features x, and the whole of the
  hyperedge features x₁, the weights wT and the bias row b; entry (p, q) of what it writes is the update's entry
  (400·t + p, q), which depends on row 400·t + p of A and of x only. Every slab is written back, to rows
  400·t … 400·t+399 of the result, and the 25 slabs tile its 10000 rows: row r lies in slab r / 400.
-/
import proofs.«108442_g68453188763984_cont_9to1_m_933_10_alg».proof.Proof.Gen.KernelIdeal.Frame
import proofs.«108442_g68453188763984_cont_9to1_m_933_10_alg».proof.Proof.Spec
import proofs.«108442_g68453188763984_cont_9to1_m_933_10_alg».proof.Proof.Payloads
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Reg2

open Cert.KernelIdeal Cert.KernelIdeal.Gen Cert.HyperGin
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a rectangle that is its whole block. -/
private theorem hz : (![0, 0] : Fin 2 → Nat) = fun _ => 0 := funext fun a => by fin_cases a <;> rfl

/-- The block indices over the 25 slabs: the incidence slab, the feature slab and the written slab are block (t, 0) of
    their arrays; the hyperedge features, the weights and the bias row are their arrays' one block (0, 0). -/
private theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## One slab's entry from the slab's inputs -/

/-- A slab's entry (p, q) is the update's entry (r, q) as soon as row p of the slab's incidence and feature blocks is
    row r of A and of x, and the three whole blocks are x₁, wT and b. -/
private theorem slab_entry (A : Mat 10000 10000) (x x1 : Mat 10000 32) (wT : Mat 32 32) (b : Mat 1 32)
    (a0 : Vec Ideal S400x10000 .bf16) (a1 : Vec Ideal S400x32 .f32) (a2 : Vec Ideal S10000x32 .bf16)
    (a3 : Vec Ideal S32x32 .f32) (a4 : Vec Ideal S1x32 .f32) (p : Fin 400) (q : Fin 32) (r : Fin 10000)
    (h0 : ∀ e : Fin 10000, a0 (ix2 p e) = A (ix2 r e))
    (h1 : ∀ j : Fin 32, a1 (ix2 p j) = x (ix2 r j))
    (h2 : ∀ (e : Fin 10000) (j : Fin 32), a2 (ix2 e j) = x1 (ix2 e j))
    (h3 : ∀ j k : Fin 32, a3 (ix2 j k) = wT (ix2 j k))
    (h4 : ∀ k : Fin 32, a4 (ix2 0 k) = b (ix2 0 k)) :
    k2_pay1 (F := Ideal) a0 a2 a1 a3 a4 (ix2 p q) = updAt A x x1 wT b r q := by
  refine (Pay.upd2_at a0 a2 a1 a3 a4 p q).trans ?_
  unfold updAt
  simp only [h0, h1, h2, h3, h4]

/-! ## The slab's input blocks, as rows of the arrays -/

/-- Slab t's block of the incidence matrix. -/
private abbrev incBlk (c : Dev nD) (t : Fin cfg2.N) : Vec Ideal S400x10000 .bf16 := iblk2 V c 0 t
/-- Slab t's block of the node features. -/
private abbrev featBlk (c : Dev nD) (t : Fin cfg2.N) : Vec Ideal S400x32 .f32 := iblk2 V c 1 t
/-- The hyperedge features, staged whole. -/
private abbrev edgeBlk (c : Dev nD) (t : Fin cfg2.N) : Vec Ideal S10000x32 .bf16 := iblk2 V c 2 t
/-- The weights, staged whole. -/
private abbrev wBlk (c : Dev nD) (t : Fin cfg2.N) : Vec Ideal S32x32 .f32 := iblk2 V c 3 t
/-- The bias row, staged whole. -/
private abbrev bBlk (c : Dev nD) (t : Fin cfg2.N) : Vec Ideal S1x32 .f32 := iblk2 V c 4 t

/-- Row p of slab t's incidence block is row 400·t + p of A. -/
private theorem incBlk_at (c : Dev nD) (t : Fin cfg2.N) (p : Fin 400) (e : Fin 10000) (r : Fin 10000)
    (hr : r.val = 400 * t.val + p.val) :
    incBlk V c t (ix2 p e) = (V c main_v4_1 : S10000x10000.Idx → EReal) (ix2 r e) := by
  obtain ⟨e0, e1, -⟩ := idx_facts t
  show V c main_v4_1 (((cfg2.win 0).blk t).view.emb (ix2 p e)) = V c main_v4_1 (ix2 r e)
  refine congrArg (V c main_v4_1) ?_
  funext a; apply Fin.ext
  match a with
  | ⟨0, _⟩ => show win2_0.index t (0 : Fin 2) * 400 + 1 * p.val = r.val; omega
  | ⟨1, _⟩ => show win2_0.index t (1 : Fin 2) * 10000 + 1 * e.val = e.val; omega

/-- Row p of slab t's feature block is row 400·t + p of x. -/
private theorem featBlk_at (c : Dev nD) (t : Fin cfg2.N) (p : Fin 400) (j : Fin 32) (r : Fin 10000)
    (hr : r.val = 400 * t.val + p.val) :
    featBlk V c t (ix2 p j) = (V c main_v8_0 : S10000x32.Idx → EReal) (ix2 r j) := by
  obtain ⟨-, -, e2, e3, -⟩ := idx_facts t
  show V c main_v8_0 (((cfg2.win 1).blk t).view.emb (ix2 p j)) = V c main_v8_0 (ix2 r j)
  refine congrArg (V c main_v8_0) ?_
  funext a; apply Fin.ext
  match a with
  | ⟨0, _⟩ => show win2_1.index t (0 : Fin 2) * 400 + 1 * p.val = r.val; omega
  | ⟨1, _⟩ => show win2_1.index t (1 : Fin 2) * 32 + 1 * j.val = j.val; omega

/-- The staged hyperedge features are x₁. -/
private theorem edgeBlk_at (c : Dev nD) (t : Fin cfg2.N) (e : Fin 10000) (j : Fin 32) :
    edgeBlk V c t (ix2 e j) = (V c main_v10 : S10000x32.Idx → EReal) (ix2 e j) := by
  obtain ⟨-, -, -, -, e4, e5, -⟩ := idx_facts t
  show V c main_v10 (((cfg2.win 2).blk t).view.emb (ix2 e j)) = V c main_v10 (ix2 e j)
  refine congrArg (V c main_v10) ?_
  funext a; apply Fin.ext
  match a with
  | ⟨0, _⟩ => show win2_2.index t (0 : Fin 2) * 10000 + 1 * e.val = e.val; omega
  | ⟨1, _⟩ => show win2_2.index t (1 : Fin 2) * 32 + 1 * j.val = j.val; omega

/-- The staged weights are wT. -/
private theorem wBlk_at (c : Dev nD) (t : Fin cfg2.N) (j k : Fin 32) :
    wBlk V c t (ix2 j k) = (V c main_v11 : S32x32.Idx → EReal) (ix2 j k) := by
  obtain ⟨-, -, -, -, -, -, e6, e7, -⟩ := idx_facts t
  show V c main_v11 (((cfg2.win 3).blk t).view.emb (ix2 j k)) = V c main_v11 (ix2 j k)
  refine congrArg (V c main_v11) ?_
  funext a; apply Fin.ext
  match a with
  | ⟨0, _⟩ => show win2_3.index t (0 : Fin 2) * 32 + 1 * j.val = j.val; omega
  | ⟨1, _⟩ => show win2_3.index t (1 : Fin 2) * 32 + 1 * k.val = k.val; omega

/-- The staged bias row is b. -/
private theorem bBlk_at (c : Dev nD) (t : Fin cfg2.N) (k : Fin 32) :
    bBlk V c t (ix2 0 k) = (V c main_v2 : S1x32.Idx → EReal) (ix2 0 k) := by
  obtain ⟨-, -, -, -, -, -, -, -, e8, e9, -⟩ := idx_facts t
  show V c main_v2 (((cfg2.win 4).blk t).view.emb (ix2 0 k)) = V c main_v2 (ix2 0 k)
  refine congrArg (V c main_v2) ?_
  funext a; apply Fin.ext
  match a with
  | ⟨0, _⟩ => show win2_4.index t (0 : Fin 2) * 1 + 1 * (0 : Fin 1).val = (0 : Fin 1).val; omega
  | ⟨1, _⟩ => show win2_4.index t (1 : Fin 2) * 32 + 1 * k.val = k.val; omega

/-! ## What a slab writes back, and where -/

/-- The update of the arrays as the pass finds them. -/
private abbrev target (c : Dev nD) : Mat 10000 32 :=
  upd (V c main_v4_1) (V c main_v8_0) (V c main_v10) (V c main_v11) (V c main_v2)

/-- Entry (p, q) of what slab t leaves in its output block is the update's entry (400·t + p, q). -/
private theorem slab_at (c : Dev nD) (t : Fin cfg2.N) (p : Fin 400) (q : Fin 32) (r : Fin 10000)
    (hr : r.val = 400 * t.val + p.val) :
    k2_pay1 (F := Ideal) (incBlk V c t) (edgeBlk V c t) (featBlk V c t) (wBlk V c t) (bBlk V c t) (ix2 p q)
      = updAt (V c main_v4_1) (V c main_v8_0) (V c main_v10) (V c main_v11) (V c main_v2) r q :=
  slab_entry (V c main_v4_1) (V c main_v8_0) (V c main_v10) (V c main_v11) (V c main_v2)
    (incBlk V c t) (featBlk V c t) (edgeBlk V c t) (wBlk V c t) (bBlk V c t) p q r
    (fun e => incBlk_at V c t p e r hr) (fun j => featBlk_at V c t p j r hr)
    (fun e j => edgeBlk_at V c t e j) (fun j k => wBlk_at V c t j k) (fun k => bBlk_at V c t k)

/-- Slab t writes back block t of the update. -/
private theorem flushed_eq (c : Dev nD) (t : Fin cfg2.N) :
    (dat2 V c).flushed 5 t = ((cfg2.win 5).blk t).view.read (Elt Ideal) (target V c) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x32) hz,
    View.ld_unit_zero (S := S400x32) hz, View.ld_unit_zero (S := S32x32) hz, View.ld_unit_zero (S := S1x32) hz]
  obtain ⟨-, -, -, -, -, -, -, -, -, -, e10, e11⟩ := idx_facts t
  funext j
  obtain ⟨p, q, rfl⟩ : ∃ (p : Fin 400) (q : Fin 32), j = ix2 p q := ⟨j 0, j 1, eq_ix2 j⟩
  have hp : p.val < 400 := p.isLt
  have ht : t.val < 25 := by have := t.isLt; have hN : cfg2.N = 25 := N_2; omega
  refine (slab_at V c t p q ⟨400 * t.val + p.val, by omega⟩ rfl).trans ?_
  show updAt (V c main_v4_1) (V c main_v8_0) (V c main_v10) (V c main_v11) (V c main_v2) ⟨400 * t.val + p.val, _⟩ q
    = updAt (V c main_v4_1) (V c main_v8_0) (V c main_v10) (V c main_v11) (V c main_v2)
        ((((cfg2.win 5).blk t).view.emb (ix2 p q)) 0) ((((cfg2.win 5).blk t).view.emb (ix2 p q)) 1)
  congr 1
  · apply Fin.ext
    show 400 * t.val + p.val = win2_5.index t (0 : Fin 2) * 400 + 1 * p.val
    omega
  · apply Fin.ext
    show q.val = win2_5.index t (1 : Fin 2) * 32 + 1 * q.val
    omega

/-- An index of the result is in slab t's block iff each coordinate is in the block's range on its axis. -/
private theorem mem_blk (t : Fin cfg2.N) (i : S10000x32.Idx) :
    i ∈ ((cfg2.win 5).blk t).view.set ↔ ∀ a : Fin 2, win2_5.index t a * S400x32.size a ≤ (i a).val ∧ (i a).val < win2_5.index t a * S400x32.size a + S400x32.size a := by
  show i ∈ ((View.whole main_v12).slice (win2_5.rect t)).set ↔ _
  rw [View.set_slice_whole, Rect.mem_set_unit]
  exact Iff.rfl

/-- Row r of the result lies in slab r / 400, which is written back. -/
private theorem covered (i : S10000x32.Idx) :
    ∃ t : Fin cfg2.N, (cfg2.win 5).flush t = true ∧ i ∈ ((cfg2.win 5).blk t).view.set := by
  have hN : cfg2.N = 25 := N_2
  have hi0 : (i 0).val < 10000 := (i 0).isLt
  have hi1 : (i 1).val < 32 := (i 1).isLt
  refine ⟨⟨(i 0).val / 400, by omega⟩, flush2_5 _, ?_⟩
  rw [mem_blk]
  obtain ⟨-, -, -, -, -, -, -, -, -, -, e10, e11⟩ := idx_facts ⟨(i 0).val / 400, by omega⟩
  intro a
  match a with
  | ⟨0, _⟩ =>
    show win2_5.index ⟨(i 0).val / 400, _⟩ (0 : Fin 2) * 400 ≤ (i 0).val ∧ (i 0).val < win2_5.index ⟨(i 0).val / 400, _⟩ (0 : Fin 2) * 400 + 400
    rw [e10]; show (i 0).val / 400 * 400 ≤ (i 0).val ∧ (i 0).val < (i 0).val / 400 * 400 + 400; omega
  | ⟨1, _⟩ =>
    show win2_5.index ⟨(i 0).val / 400, _⟩ (1 : Fin 2) * 32 ≤ (i 1).val ∧ (i 1).val < win2_5.index ⟨(i 0).val / 400, _⟩ (1 : Fin 2) * 32 + 32
    rw [e11]; omega

/-- The updated node features. -/
theorem nodes2 (c : Dev nD) :
    (dat2 V c).arrAt 5 cfg2.N = upd (V c main_v4_1) (V c main_v8_0) (V c main_v10) (V c main_v11) (V c main_v2) :=
  (dat2 V c).arrAt_eq_of_cover 5 (target V c) (fun t _ => flushed_eq V c t) (covered)

end Cert.KernelIdeal.Reg2

end
-- ==== Proof.Flow.lean ====
/-
  The kernel program's two results, followed through its three passes and the host operations between them.

  With A the incidence matrix and x = x₀ · Wᵢᵀ + bᵢ: pass 1 leaves x, a copy of A and (Aᵀ x)ᵀ; the host transposes the
  aggregate (the casts to bf16 are the identity on extended reals) and the layer's weight; pass 2 leaves the layer-1
  features x' = max((x + A (Aᵀ x)) · W₁ᵀ + b₁, 0) and (Aᵀ x')ᵀ; the host transposes again — this transposed aggregate
  Aᵀ x' is the program's second result —; pass 3 leaves max((x' + A (Aᵀ x')) · W₂ᵀ + b₂, 0), the first result.
  Every buffer a pass or a host stretch does not write keeps what it held.
-/
import proofs.«108442_g68453188763984_cont_9to1_m_933_10_alg».proof.Proof.Reg0
import proofs.«108442_g68453188763984_cont_9to1_m_933_10_alg».proof.Proof.Reg1
import proofs.«108442_g68453188763984_cont_9to1_m_933_10_alg».proof.Proof.Reg2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Flow

open Cert.KernelIdeal Cert.KernelIdeal.Gen Cert.HyperGin
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## Layout operations as the specification's: a transpose, a bias as a row, a format change -/

theorem transpose_Wi (w : Vec Ideal S32x128 .f32) : transpose S128x32 [1, 0] w transposes_S32x128_S128x32_1_0 = tr w := by
  funext i
  exact transpose_apply [1, 0] w transposes_S32x128_S128x32_1_0 i (ix2 (i 1) (i 0)) (fun b => match b with
    | ⟨0, _⟩ => rfl
    | ⟨1, _⟩ => rfl)

theorem transpose_W (w : Vec Ideal S32x32 .f32) : transpose S32x32 [1, 0] w transposes_S32x32_S32x32_1_0 = tr w := by
  funext i
  exact transpose_apply [1, 0] w transposes_S32x32_S32x32_1_0 i (ix2 (i 1) (i 0)) (fun b => match b with
    | ⟨0, _⟩ => rfl
    | ⟨1, _⟩ => rfl)

theorem transpose_agg (y : Vec Ideal S32x10000 .f32) : transpose S10000x32 [1, 0] y transposes_S32x10000_S10000x32_1_0 = tr y := by
  funext i
  exact transpose_apply [1, 0] y transposes_S32x10000_S10000x32_1_0 i (ix2 (i 1) (i 0)) (fun b => match b with
    | ⟨0, _⟩ => rfl
    | ⟨1, _⟩ => rfl)

theorem reshape_bias (v : Vec Ideal S32 .f32) : shapeCast S1x32 v shapeCasts_S32_S1x32 = asRow v := by
  funext i
  refine (shapeCast_addUnit_apply ![32] v shapeCasts_S32_S1x32 i).trans (congrArg v (funext fun a => ?_))
  match a with
  | ⟨0, _⟩ => rfl

theorem cast_bf16 (y : FVec Ideal S10000x32 .f32) : (truncf (F := Ideal) .bf16 y bitsLt_bf16_f32 : FVec Ideal S10000x32 .bf16) = y := rfl

/-! ## The arguments, by name -/

abbrev aX (c : Dev nD) : Mat 10000 128 := m ((c : Thread nD τ).loc main_arg0)
abbrev aA (c : Dev nD) : Mat 10000 10000 := m ((c : Thread nD τ).loc main_arg1)
abbrev aWi (c : Dev nD) : Mat 32 128 := m ((c : Thread nD τ).loc main_arg2)
abbrev aBi (c : Dev nD) : Row 32 := m ((c : Thread nD τ).loc main_arg3)
abbrev aW1 (c : Dev nD) : Mat 32 32 := m ((c : Thread nD τ).loc main_arg4)
abbrev aB1 (c : Dev nD) : Row 32 := m ((c : Thread nD τ).loc main_arg5)
abbrev aW2 (c : Dev nD) : Mat 32 32 := m ((c : Thread nD τ).loc main_arg6)
abbrev aB2 (c : Dev nD) : Row 32 := m ((c : Thread nD τ).loc main_arg7)

/-! ## Before pass 1 -/

theorem V1_arg0 (c : Dev nD) : V1 m ρ c main_arg0 = aX m c := (by show StableHlo.after hostOps0 (W0 m ρ c) (Proc.devRef .tc main_arg0) = _; after_results <;> rfl)
theorem V1_arg1 (c : Dev nD) : V1 m ρ c main_arg1 = aA m c := (by show StableHlo.after hostOps0 (W0 m ρ c) (Proc.devRef .tc main_arg1) = _; after_results <;> rfl)
theorem V1_v3 (c : Dev nD) : V1 m ρ c main_v3 = tr (aWi m c) :=
  (show V1 m ρ c main_v3 = transpose S128x32 [1, 0] (aWi m c) transposes_S32x128_S128x32_1_0 from (by show StableHlo.after hostOps0 (W0 m ρ c) (Proc.devRef .tc main_v3) = _; after_results <;> rfl)).trans (transpose_Wi _)
theorem V1_v0 (c : Dev nD) : V1 m ρ c main_v0 = asRow (aBi m c) :=
  (show V1 m ρ c main_v0 = shapeCast S1x32 (aBi m c) shapeCasts_S32_S1x32 from (by show StableHlo.after hostOps0 (W0 m ρ c) (Proc.devRef .tc main_v0) = _; after_results <;> rfl)).trans (reshape_bias _)
theorem W1_v1 (c : Dev nD) : W1 m ρ c (Proc.devRef .tc main_v1) = asRow (aB1 m c) :=
  (show W1 m ρ c (Proc.devRef .tc main_v1) = shapeCast S1x32 (aB1 m c) shapeCasts_S32_S1x32 from (by show StableHlo.after hostOps0 (W0 m ρ c) (Proc.devRef .tc main_v1) = _; after_results <;> rfl)).trans (reshape_bias _)
theorem W1_v2 (c : Dev nD) : W1 m ρ c (Proc.devRef .tc main_v2) = asRow (aB2 m c) :=
  (show W1 m ρ c (Proc.devRef .tc main_v2) = shapeCast S1x32 (aB2 m c) shapeCasts_S32_S1x32 from (by show StableHlo.after hostOps0 (W0 m ρ c) (Proc.devRef .tc main_v2) = _; after_results <;> rfl)).trans (reshape_bias _)
theorem W1_arg4 (c : Dev nD) : W1 m ρ c (Proc.devRef .tc main_arg4) = aW1 m c := (by show StableHlo.after hostOps0 (W0 m ρ c) (Proc.devRef .tc main_arg4) = _; after_results <;> rfl)
theorem W1_arg6 (c : Dev nD) : W1 m ρ c (Proc.devRef .tc main_arg6) = aW2 m c := (by show StableHlo.after hostOps0 (W0 m ρ c) (Proc.devRef .tc main_arg6) = _; after_results <;> rfl)

/-! ## After pass 1 -/

/-- The node features after the initial linear layer. -/
abbrev f0 (c : Dev nD) : Mat 10000 32 := feat0 (aX m c) (aWi m c) (aBi m c)

theorem W2_v4_0 (c : Dev nD) : W2 m ρ c (Proc.devRef .tc main_v4_0) = f0 m c := by
  refine (W2_arr m ρ c 4).trans ((Reg0.nodes0 (V1 m ρ) c).trans ?_)
  rw [V1_arg0, V1_v3, V1_v0]
  rfl
theorem W2_v4_1 (c : Dev nD) : W2 m ρ c (Proc.devRef .tc main_v4_1) = aA m c := by
  refine (W2_arr m ρ c 5).trans ((Reg0.copyA (V1 m ρ) c).trans ?_)
  exact V1_arg1 m ρ c
theorem W2_v4_2 (c : Dev nD) : W2 m ρ c (Proc.devRef .tc main_v4_2) = aggT (aA m c) (f0 m c) := by
  refine (W2_arr m ρ c 6).trans ((Reg0.edgesT0 (V1 m ρ) c).trans ?_)
  rw [V1_arg0, V1_arg1, V1_v3, V1_v0]
  rfl
theorem W2_v1 (c : Dev nD) : W2 m ρ c (Proc.devRef .tc main_v1) = asRow (aB1 m c) :=
  (W2_of_ne m ρ c main_v1 (by decide)).trans (W1_v1 m ρ c)
theorem W2_v2 (c : Dev nD) : W2 m ρ c (Proc.devRef .tc main_v2) = asRow (aB2 m c) :=
  (W2_of_ne m ρ c main_v2 (by decide)).trans (W1_v2 m ρ c)
theorem W2_arg4 (c : Dev nD) : W2 m ρ c (Proc.devRef .tc main_arg4) = aW1 m c :=
  (W2_of_ne m ρ c main_arg4 (by decide)).trans (W1_arg4 m ρ c)
theorem W2_arg6 (c : Dev nD) : W2 m ρ c (Proc.devRef .tc main_arg6) = aW2 m c :=
  (W2_of_ne m ρ c main_arg6 (by decide)).trans (W1_arg6 m ρ c)

/-! ## Before pass 2 -/

theorem V3_v4_1 (c : Dev nD) : V3 m ρ c main_v4_1 = aA m c :=
  (show V3 m ρ c main_v4_1 = W2 m ρ c (Proc.devRef .tc main_v4_1) from (by show StableHlo.after hostOps1 (W2 m ρ c) (Proc.devRef .tc main_v4_1) = _; after_results <;> rfl)).trans (W2_v4_1 m ρ c)
theorem V3_v4_0 (c : Dev nD) : V3 m ρ c main_v4_0 = f0 m c :=
  (show V3 m ρ c main_v4_0 = W2 m ρ c (Proc.devRef .tc main_v4_0) from (by show StableHlo.after hostOps1 (W2 m ρ c) (Proc.devRef .tc main_v4_0) = _; after_results <;> rfl)).trans (W2_v4_0 m ρ c)
theorem V3_v6 (c : Dev nD) : V3 m ρ c main_v6 = tr (aggT (aA m c) (f0 m c)) := by
  refine (show V3 m ρ c main_v6 = truncf (F := Ideal) .bf16 (transpose S10000x32 [1, 0] (W2 m ρ c (Proc.devRef .tc main_v4_2)) transposes_S32x10000_S10000x32_1_0) bitsLt_bf16_f32
    from (by show StableHlo.after hostOps1 (W2 m ρ c) (Proc.devRef .tc main_v6) = _; after_results <;> rfl)).trans ?_
  rw [W2_v4_2]
  exact (cast_bf16 _).trans (transpose_agg _)
theorem V3_v7 (c : Dev nD) : V3 m ρ c main_v7 = tr (aW1 m c) := by
  refine (show V3 m ρ c main_v7 = transpose S32x32 [1, 0] (W2 m ρ c (Proc.devRef .tc main_arg4)) transposes_S32x32_S32x32_1_0
    from (by show StableHlo.after hostOps1 (W2 m ρ c) (Proc.devRef .tc main_v7) = _; after_results <;> rfl)).trans ?_
  rw [W2_arg4]
  exact transpose_W _
theorem V3_v1 (c : Dev nD) : V3 m ρ c main_v1 = asRow (aB1 m c) :=
  (show V3 m ρ c main_v1 = W2 m ρ c (Proc.devRef .tc main_v1) from (by show StableHlo.after hostOps1 (W2 m ρ c) (Proc.devRef .tc main_v1) = _; after_results <;> rfl)).trans (W2_v1 m ρ c)
theorem W3_v2 (c : Dev nD) : W3 m ρ c (Proc.devRef .tc main_v2) = asRow (aB2 m c) :=
  (show W3 m ρ c (Proc.devRef .tc main_v2) = W2 m ρ c (Proc.devRef .tc main_v2) from (by show StableHlo.after hostOps1 (W2 m ρ c) (Proc.devRef .tc main_v2) = _; after_results <;> rfl)).trans (W2_v2 m ρ c)
theorem W3_arg6 (c : Dev nD) : W3 m ρ c (Proc.devRef .tc main_arg6) = aW2 m c :=
  (show W3 m ρ c (Proc.devRef .tc main_arg6) = W2 m ρ c (Proc.devRef .tc main_arg6) from (by show StableHlo.after hostOps1 (W2 m ρ c) (Proc.devRef .tc main_arg6) = _; after_results <;> rfl)).trans (W2_arg6 m ρ c)

/-! ## After pass 2 -/

/-- The node features after layer 1. -/
abbrev f1 (c : Dev nD) : Mat 10000 32 := feat1 (aX m c) (aA m c) (aWi m c) (aBi m c) (aW1 m c) (aB1 m c)

theorem W4_v8_0 (c : Dev nD) : W4 m ρ c (Proc.devRef .tc main_v8_0) = f1 m c := by
  refine (W4_arr m ρ c 5).trans ((Reg1.nodes1 (V3 m ρ) c).trans ?_)
  rw [V3_v4_1, V3_v4_0, V3_v6, V3_v7, V3_v1]
  rfl
theorem W4_v8_1 (c : Dev nD) : W4 m ρ c (Proc.devRef .tc main_v8_1) = aggT (aA m c) (f1 m c) := by
  refine (W4_arr m ρ c 6).trans ((Reg1.edgesT1 (V3 m ρ) c).trans ?_)
  rw [V3_v4_1, V3_v4_0, V3_v6, V3_v7, V3_v1]
  rfl
/-- The incidence copy is an input of pass 2: it keeps what it held. -/
theorem W4_v4_1 (c : Dev nD) : W4 m ρ c (Proc.devRef .tc main_v4_1) = aA m c :=
  (W4_arr m ρ c 0).trans ((((dat1 (V3 m ρ) c).arrAt_in 0 rfl _).trans (A_eq1 (V3 m ρ) c 0)).trans (V3_v4_1 m ρ c))
theorem W4_v2 (c : Dev nD) : W4 m ρ c (Proc.devRef .tc main_v2) = asRow (aB2 m c) :=
  (W4_of_ne m ρ c main_v2 (by decide)).trans (W3_v2 m ρ c)
theorem W4_arg6 (c : Dev nD) : W4 m ρ c (Proc.devRef .tc main_arg6) = aW2 m c :=
  (W4_of_ne m ρ c main_arg6 (by decide)).trans (W3_arg6 m ρ c)

/-! ## Before pass 3 -/

theorem V5_v4_1 (c : Dev nD) : V5 m ρ c main_v4_1 = aA m c :=
  (show V5 m ρ c main_v4_1 = W4 m ρ c (Proc.devRef .tc main_v4_1) from (by show StableHlo.after hostOps2 (W4 m ρ c) (Proc.devRef .tc main_v4_1) = _; after_results <;> rfl)).trans (W4_v4_1 m ρ c)
theorem V5_v8_0 (c : Dev nD) : V5 m ρ c main_v8_0 = f1 m c :=
  (show V5 m ρ c main_v8_0 = W4 m ρ c (Proc.devRef .tc main_v8_0) from (by show StableHlo.after hostOps2 (W4 m ρ c) (Proc.devRef .tc main_v8_0) = _; after_results <;> rfl)).trans (W4_v8_0 m ρ c)
theorem V5_v9 (c : Dev nD) : V5 m ρ c main_v9 = tr (aggT (aA m c) (f1 m c)) := by
  refine (show V5 m ρ c main_v9 = transpose S10000x32 [1, 0] (W4 m ρ c (Proc.devRef .tc main_v8_1)) transposes_S32x10000_S10000x32_1_0
    from (by show StableHlo.after hostOps2 (W4 m ρ c) (Proc.devRef .tc main_v9) = _; after_results <;> rfl)).trans ?_
  rw [W4_v8_1]
  exact transpose_agg _
theorem V5_v10 (c : Dev nD) : V5 m ρ c main_v10 = tr (aggT (aA m c) (f1 m c)) := by
  refine (show V5 m ρ c main_v10 = truncf (F := Ideal) .bf16 (transpose S10000x32 [1, 0] (W4 m ρ c (Proc.devRef .tc main_v8_1)) transposes_S32x10000_S10000x32_1_0) bitsLt_bf16_f32
    from (by show StableHlo.after hostOps2 (W4 m ρ c) (Proc.devRef .tc main_v10) = _; after_results <;> rfl)).trans ?_
  rw [W4_v8_1]
  exact (cast_bf16 _).trans (transpose_agg _)
theorem V5_v11 (c : Dev nD) : V5 m ρ c main_v11 = tr (aW2 m c) := by
  refine (show V5 m ρ c main_v11 = transpose S32x32 [1, 0] (W4 m ρ c (Proc.devRef .tc main_arg6)) transposes_S32x32_S32x32_1_0
    from (by show StableHlo.after hostOps2 (W4 m ρ c) (Proc.devRef .tc main_v11) = _; after_results <;> rfl)).trans ?_
  rw [W4_arg6]
  exact transpose_W _
theorem V5_v2 (c : Dev nD) : V5 m ρ c main_v2 = asRow (aB2 m c) :=
  (show V5 m ρ c main_v2 = W4 m ρ c (Proc.devRef .tc main_v2) from (by show StableHlo.after hostOps2 (W4 m ρ c) (Proc.devRef .tc main_v2) = _; after_results <;> rfl)).trans (W4_v2 m ρ c)

/-! ## After pass 3: the two results -/

/-- The first result: the node features after layer 2. -/
theorem W6_nodes (c : Dev nD) : W6 m ρ c (Proc.devRef .tc main_v12)
    = outNodes (aX m c) (aA m c) (aWi m c) (aBi m c) (aW1 m c) (aB1 m c) (aW2 m c) (aB2 m c) := by
  refine (W6_arr m ρ c 5).trans ((Reg2.nodes2 (V5 m ρ) c).trans ?_)
  rw [V5_v4_1, V5_v8_0, V5_v10, V5_v11, V5_v2]
  rfl
/-- The second result: layer 2's hyperedge features, which pass 3 does not touch. -/
theorem W6_edges (c : Dev nD) : W6 m ρ c (Proc.devRef .tc main_v9)
    = outEdges (aX m c) (aA m c) (aWi m c) (aBi m c) (aW1 m c) (aB1 m c) :=
  (W6_of_ne m ρ c main_v9 (by decide)).trans (V5_v9 m ρ c)

end Cert.KernelIdeal.Flow

end
-- ==== Proof.RefValue.lean ====
/-
  The reference program's two results, read index by index at the ideal instance, are the network of Spec.lean:
  its products by the transposed incidence matrix are the transposed aggregate with the factors of each term swapped,
  its factor 1.0 in front of the node features is the unit of the extended reals' product, and jnp's relu is the
  maximum with the zero word.
-/
import proofs.«108442_g68453188763984_cont_9to1_m_933_10_alg».proof.Proof.Gen.ReferenceIdeal.Read
import proofs.«108442_g68453188763984_cont_9to1_m_933_10_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Read Cert.HyperGin
open Idealize.ShloMosaic Idealize.ShloMosaic.ValueIdx
open scoped BigOperators

/-- The word of 1.0 is the unit of the extended reals' product. -/
private theorem one_word : Ideal.ofBits .f32 0x3F800000#32 = (1 : EReal) := Ideal.ofBits_one_f32

/-- A rank-2 index is named by the values of its two coordinates. -/
private theorem ix2_of_val {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index is named by the value of its coordinate. -/
private theorem ix1_of_val {n : Nat} (f : (⟨1, ![n]⟩ : Shape).Idx) (a : Fin n) (h0 : (f 0).val = a.val) : f = ix1 a :=
  funext fun d => Fin.ext (by match d with | ⟨0, _⟩ => exact h0)

/-! ## The mathematics, over opaque node features -/

/-- The product by the transposed incidence matrix, Σₙ A[n,e] · X[n,h], is the transposed aggregate Σₙ X[n,h] · A[n,e]:
    the factors of each term swapped. -/
private theorem agg_at (A : Mat 10000 10000) (X : Mat 10000 32) (e : Fin 10000) (h : Fin 32) :
    (∑ n : Fin 10000, A (ix2 n e) * X (ix2 n h)) = tr (aggT A X) (ix2 e h) := by
  show _ = ∑ n : Fin 10000, X (ix2 n h) * A (ix2 n e)
  exact Finset.sum_congr rfl fun n _ => mul_comm _ _

/-- One entry of the reference's layer over node features X, weights W (not yet transposed) and bias b — its factor
    1.0 already the unit, its hyperedge features still the inner sum — is the layer of Spec. -/
private theorem layer_at (A : Mat 10000 10000) (X : Mat 10000 32) (W : Mat 32 32) (b : Row 32) (p : Fin 10000) (q : Fin 32) :
    max ((∑ j : Fin 32, ((1 : EReal) * X (ix2 p j) + ∑ e : Fin 10000, A (ix2 p e) * (∑ n : Fin 10000, A (ix2 n e) * X (ix2 n j))) * W (ix2 q j)) + b (ix1 q)) zeroW
      = layer A X W b (ix2 p q) := by
  show _ = max ((∑ j : Fin 32, (X (ix2 p j) + ∑ e : Fin 10000, A (ix2 p e) * tr (aggT A X) (ix2 e j)) * W (ix2 q j)) + b (ix1 q)) zeroW
  simp only [one_mul, agg_at]

/-! ## The initial linear layer: x₀ · Wᵢᵀ + bᵢ -/

/-- The reference's %4 is the node features after the initial linear layer. -/
theorem v4_eq (x0 : (⟨S10000x128, .f32⟩ : BufTy).Contents (Elt Ideal)) (x2 : (⟨S32x128, .f32⟩ : BufTy).Contents (Elt Ideal)) (x3 : (⟨S32, .f32⟩ : BufTy).Contents (Elt Ideal)) :
    val_main_v4 (F := Ideal) x0 x2 x3 = feat0 x0 x2 x3 := by
  funext i
  obtain ⟨p, q, rfl⟩ : ∃ (p : Fin 10000) (q : Fin 32), i = ix2 p q := ⟨i 0, i 1, eq_ix2 i⟩
  rw [val_main_v4_apply, val_main_v1_apply, val_main_v3_apply, val_main_v2_apply]
  show (∑ k : Fin 128, x0 (lidx_main_v1 (ix2 p q) k) * val_main_v0 (F := Ideal) x2 (ridx_main_v1 (ix2 p q) k)) + x3 (idx_main_v2 (idx_main_v3 (ix2 p q)))
    = (∑ k : Fin 128, x0 (ix2 p k) * x2 (ix2 q k)) + x3 (ix1 q)
  rw [ix1_of_val (idx_main_v2 (idx_main_v3 (ix2 p q))) q rfl]
  refine congrArg (· + x3 (ix1 q)) (Finset.sum_congr rfl fun k _ => ?_)
  rw [val_main_v0_apply, ix2_of_val (lidx_main_v1 (ix2 p q) k) p k rfl rfl, ix2_of_val (idx_main_v0 (ridx_main_v1 (ix2 p q) k)) q k rfl rfl]

/-! ## Layer 1 -/

/-- %6 = Aᵀ · %4 at (e, h): Σₙ A[n,e] · %4[n,h]. -/
theorem v6_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (e : Fin 10000) (h : Fin 32) :
    val_main_v6 (F := Ideal) x0 x1 x2 x3 (ix2 e h) = ∑ n : Fin 10000, x1 (ix2 n e) * val_main_v4 (F := Ideal) x0 x2 x3 (ix2 n h) := by
  rw [val_main_v6_apply]
  refine Finset.sum_congr rfl fun n _ => ?_
  rw [val_main_v5_apply, ix2_of_val (idx_main_v5 (lidx_main_v6 (ix2 e h) n)) n e rfl rfl, ix2_of_val (ridx_main_v6 (ix2 e h) n) n h rfl rfl]

/-- %10 = 1.0 · %4 + A · %6 at (p, j). -/
theorem v10_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (p : Fin 10000) (j : Fin 32) :
    val_main_v10 (F := Ideal) x0 x1 x2 x3 (ix2 p j)
      = (1 : EReal) * val_main_v4 (F := Ideal) x0 x2 x3 (ix2 p j) + ∑ e : Fin 10000, x1 (ix2 p e) * val_main_v6 (F := Ideal) x0 x1 x2 x3 (ix2 e j) := by
  rw [val_main_v10_apply, val_main_v9_apply, val_main_v8_apply, val_main_cst_apply, val_main_v7_apply]
  simp only [Ideal.addf_def, Ideal.mulf_def, Ideal.ofBits_def, one_word]
  refine congrArg (_ + ·) (Finset.sum_congr rfl fun e _ => ?_)
  rw [ix2_of_val (lidx_main_v7 (ix2 p j) e) p e rfl rfl, ix2_of_val (ridx_main_v7 (ix2 p j) e) e j rfl rfl]

/-- %16 = max(%10 · W1ᵀ + b1, 0) at (p, q). -/
theorem v16_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (p : Fin 10000) (q : Fin 32) :
    val_main_v16 (F := Ideal) x0 x1 x2 x3 x4 x5 (ix2 p q)
      = max ((∑ j : Fin 32, val_main_v10 (F := Ideal) x0 x1 x2 x3 (ix2 p j) * x4 (ix2 q j)) + x5 (ix1 q)) zeroW := by
  rw [val_main_v16_apply, val_main_v15_apply, val_main_v12_apply, val_main_v14_apply, val_main_v13_apply, val_main_call0_v0_apply, val_main_call0_cst_apply]
  simp only [Ideal.addf_def, Ideal.maximumf_def, Ideal.ofBits_def]
  rw [ix1_of_val (idx_main_v13 (idx_main_v14 (ix2 p q))) q rfl]
  refine congrArg (max · zeroW) (congrArg (· + x5 (ix1 q)) (Finset.sum_congr rfl fun j _ => ?_))
  rw [val_main_v11_apply, ix2_of_val (lidx_main_v12 (ix2 p q) j) p j rfl rfl, ix2_of_val (idx_main_v11 (ridx_main_v12 (ix2 p q) j)) q j rfl rfl]

/-- The reference's %16 is the node features after layer 1. -/
theorem v16_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    val_main_v16 (F := Ideal) x0 x1 x2 x3 x4 x5 = feat1 x0 x1 x2 x3 x4 x5 := by
  funext i
  obtain ⟨p, q, rfl⟩ : ∃ (p : Fin 10000) (q : Fin 32), i = ix2 p q := ⟨i 0, i 1, eq_ix2 i⟩
  rw [v16_at]
  simp only [v10_at, v6_at, v4_eq]
  exact layer_at x1 (feat0 x0 x2 x3) x4 x5 p q

/-! ## Layer 2 -/

/-- %18 = Aᵀ · %16 at (e, h): Σₙ A[n,e] · %16[n,h]. -/
theorem v18_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (e : Fin 10000) (h : Fin 32) :
    val_main_v18 (F := Ideal) x0 x1 x2 x3 x4 x5 (ix2 e h) = ∑ n : Fin 10000, x1 (ix2 n e) * val_main_v16 (F := Ideal) x0 x1 x2 x3 x4 x5 (ix2 n h) := by
  rw [val_main_v18_apply]
  refine Finset.sum_congr rfl fun n _ => ?_
  rw [val_main_v17_apply, ix2_of_val (idx_main_v17 (lidx_main_v18 (ix2 e h) n)) n e rfl rfl, ix2_of_val (ridx_main_v18 (ix2 e h) n) n h rfl rfl]

/-- %22 = 1.0 · %16 + A · %18 at (p, j). -/
theorem v22_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (p : Fin 10000) (j : Fin 32) :
    val_main_v22 (F := Ideal) x0 x1 x2 x3 x4 x5 (ix2 p j)
      = (1 : EReal) * val_main_v16 (F := Ideal) x0 x1 x2 x3 x4 x5 (ix2 p j) + ∑ e : Fin 10000, x1 (ix2 p e) * val_main_v18 (F := Ideal) x0 x1 x2 x3 x4 x5 (ix2 e j) := by
  rw [val_main_v22_apply, val_main_v21_apply, val_main_v20_apply, val_main_cst_0_apply, val_main_v19_apply]
  simp only [Ideal.addf_def, Ideal.mulf_def, Ideal.ofBits_def, one_word]
  refine congrArg (_ + ·) (Finset.sum_congr rfl fun e _ => ?_)
  rw [ix2_of_val (lidx_main_v19 (ix2 p j) e) p e rfl rfl, ix2_of_val (ridx_main_v19 (ix2 p j) e) e j rfl rfl]

/-- %28 = max(%22 · W2ᵀ + b2, 0) at (p, q). -/
theorem v28_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (p : Fin 10000) (q : Fin 32) :
    val_main_v28 (F := Ideal) x0 x1 x2 x3 x4 x5 x6 x7 (ix2 p q)
      = max ((∑ j : Fin 32, val_main_v22 (F := Ideal) x0 x1 x2 x3 x4 x5 (ix2 p j) * x6 (ix2 q j)) + x7 (ix1 q)) zeroW := by
  rw [val_main_v28_apply, val_main_v27_apply, val_main_v24_apply, val_main_v26_apply, val_main_v25_apply, val_main_call1_v0_apply, val_main_call1_cst_apply]
  simp only [Ideal.addf_def, Ideal.maximumf_def, Ideal.ofBits_def]
  rw [ix1_of_val (idx_main_v25 (idx_main_v26 (ix2 p q))) q rfl]
  refine congrArg (max · zeroW) (congrArg (· + x7 (ix1 q)) (Finset.sum_congr rfl fun j _ => ?_))
  rw [val_main_v23_apply, ix2_of_val (lidx_main_v24 (ix2 p q) j) p j rfl rfl, ix2_of_val (idx_main_v23 (ridx_main_v24 (ix2 p q) j)) q j rfl rfl]

/-! ## The two results -/

/-- The reference's first result is the node features after layer 2. -/
theorem ref_nodes (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) :
    val_main_v28 (F := Ideal) x0 x1 x2 x3 x4 x5 x6 x7 = outNodes x0 x1 x2 x3 x4 x5 x6 x7 := by
  funext i
  obtain ⟨p, q, rfl⟩ : ∃ (p : Fin 10000) (q : Fin 32), i = ix2 p q := ⟨i 0, i 1, eq_ix2 i⟩
  rw [v28_at]
  simp only [v22_at, v18_at, v16_eq]
  exact layer_at x1 (feat1 x0 x1 x2 x3 x4 x5) x6 x7 p q

/-- The reference's second result is layer 2's hyperedge features. -/
theorem ref_edges (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    val_main_v18 (F := Ideal) x0 x1 x2 x3 x4 x5 = outEdges x0 x1 x2 x3 x4 x5 := by
  funext i
  obtain ⟨e, h, rfl⟩ : ∃ (e : Fin 10000) (h : Fin 32), i = ix2 e h := ⟨i 0, i 1, eq_ix2 i⟩
  rw [v18_at, v16_eq]
  exact agg_at x1 (feat1 x0 x1 x2 x3 x4 x5) e h

end Cert.ReferenceIdeal.RefValue

end
-- ==== Proof.lean ====
/-
  The proof of `Cert.Claim`: a Pallas kernel for a two-layer hypergraph network (N = 10000 nodes and hyperedges, dense
  incidence matrix A) against its jnp reference, over the extended reals.

  Both programs compute x = x₀ · Wᵢᵀ + bᵢ and then twice x ← max((x + A (Aᵀ x)) · Wᵀ + b, 0), returning the last x and
  the last Aᵀ x. The kernel makes three passes over row slabs of A: pass 1 computes x slab by slab and accumulates
  (Aᵀ x)ᵀ = Σ_slabs xᵀ_slab A_slab; pass 2 applies layer 1 slab by slab and accumulates the NEXT layer's aggregate in
  the same sweep; pass 3 applies layer 2. Over the extended reals the casts to bf16 are the identity, a sum over the
  rows is the sum over the slabs of the sums inside them, the transposed aggregate's terms x[n,h] · A[n,e] are the
  reference's A[n,e] · x[n,h], and the reference's factor 1.0 is the unit: no distributivity is used, so the
  finiteness precondition is never opened.

  Spec.lean states the network; Payloads.lean reads the three kernel bodies at an index; Reg0 / Reg1 / Reg2 say what each
  pass leaves in its arrays from whatever it finds; Flow.lean follows the values through the host operations between
  the passes; RefValue.lean reads the reference; RunNamed.lean is the program's run with its two results named.
-/
import proofs.«108442_g68453188763984_cont_9to1_m_933_10_alg».proof.Defs
import proofs.«108442_g68453188763984_cont_9to1_m_933_10_alg».proof.Proof.Gen.Kernel
import proofs.«108442_g68453188763984_cont_9to1_m_933_10_alg».proof.Proof.Gen.Kernel.Frame
import proofs.«108442_g68453188763984_cont_9to1_m_933_10_alg».proof.Proof.Gen.KernelIdeal
import proofs.«108442_g68453188763984_cont_9to1_m_933_10_alg».proof.Proof.Gen.KernelIdeal.Frame
import proofs.«108442_g68453188763984_cont_9to1_m_933_10_alg».proof.Proof.Gen.ReferenceIdeal
import proofs.«108442_g68453188763984_cont_9to1_m_933_10_alg».proof.Proof.Gen.ReferenceIdeal.Run
import proofs.«108442_g68453188763984_cont_9to1_m_933_10_alg».proof.Proof.Gen.ReferenceIdeal.Read
import proofs.«108442_g68453188763984_cont_9to1_m_933_10_alg».proof.Proof.Gen.Pre_finite_inputs
import proofs.«108442_g68453188763984_cont_9to1_m_933_10_alg».proof.Proof.RunNamed
import proofs.«108442_g68453188763984_cont_9to1_m_933_10_alg».proof.Proof.Flow
import proofs.«108442_g68453188763984_cont_9to1_m_933_10_alg».proof.Proof.RefValue
import Idealize.ShloMosaic.Adequacy
import Idealize.ShloMosaic.Init

noncomputable section

namespace Cert.Proof

open Idealize.ShloMosaic Idealize.SL.Sem Cert.HyperGin

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the node features after layer 2 and layer 2's hyperedge features of arguments that agree. -/
theorem algebraic : Cert.algebraic_KernelIdeal_ReferenceIdeal := by
  intro m ρ m' ρ' _ hagree
  refine ⟨fun c => outNodes (Cert.KernelIdeal.Flow.aX m c) (Cert.KernelIdeal.Flow.aA m c) (Cert.KernelIdeal.Flow.aWi m c)
      (Cert.KernelIdeal.Flow.aBi m c) (Cert.KernelIdeal.Flow.aW1 m c) (Cert.KernelIdeal.Flow.aB1 m c)
      (Cert.KernelIdeal.Flow.aW2 m c) (Cert.KernelIdeal.Flow.aB2 m c),
    fun c => outEdges (Cert.KernelIdeal.Flow.aX m c) (Cert.KernelIdeal.Flow.aA m c) (Cert.KernelIdeal.Flow.aWi m c)
      (Cert.KernelIdeal.Flow.aBi m c) (Cert.KernelIdeal.Flow.aW1 m c) (Cert.KernelIdeal.Flow.aB1 m c), ?_, ?_⟩
  · refine (θ_run Cert.KernelIdeal.defs _ _).mono (fun _ h c => ?_) (Cert.KernelIdeal.Named.run_named (F := Ideal) m ρ)
    obtain ⟨h1, h2, hr⟩ := h c
    exact ⟨h1.trans (Cert.KernelIdeal.Flow.W6_nodes m ρ c), h2.trans (Cert.KernelIdeal.Flow.W6_edges m ρ c), hr⟩
  · refine (θ_run Cert.ReferenceIdeal.defs _ _).mono (fun _ h c => ?_) (Cert.ReferenceIdeal.Value.run (F := Ideal) m' ρ')
    obtain ⟨h1, h2, hr⟩ := h c
    obtain ⟨e0, e1, e2, e3, e4, e5, e6, e7⟩ := hagree c
    refine ⟨h1.trans ?_, h2.trans ?_, hr⟩
    · rw [Cert.ReferenceIdeal.Read.val_main_v28_eq, Cert.ReferenceIdeal.RefValue.ref_nodes, e0, e1, e2, e3, e4, e5, e6, e7]
    · rw [Cert.ReferenceIdeal.Read.val_main_v18_eq, Cert.ReferenceIdeal.RefValue.ref_edges, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
